-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S50000x2048 : Shape := ⟨2, ![50000, 2048]⟩
abbrev S1024x2048 : Shape := ⟨2, ![1024, 2048]⟩
abbrev S1024 : Shape := ⟨1, ![1024]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S50000x2048 : S_.BroadcastsInDim S50000x2048 (![] : Fin 0 → Fin S50000x2048.rank)
  reducesTo_S50000x2048_S_d0_1 : S50000x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x2048 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S512x2048 .f32) (main_arg1 : FVec F S50000x2048 .f32) (main_arg2 : FVec F S1024x2048 .f32) (main_arg3 : FVec F S1024 .f32) (main_arg4 : FVec F S1024x2048 .f32) (main_arg5 : FVec F S1024 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S50000x2048 .f32 := Host.absf main_arg1
  let main_cst_0 : FVec F S_ .f32 := constant S_ .f32 0x7F800000#32
  let main_v5 : FVec F S50000x2048 .f32 := broadcastInDim S50000x2048 ![] bcast_S_S50000x2048 main_cst_0
  let main_v6 : IVec S50000x2048 1 := cmpf .olt main_v4 main_v5
  let main_c_1 : IVec S_ 1 := constantI S_ 1 1#1
  let main_v7 : IVec S_ 1 := (fun x v => Host.reduce IntOp.andi x v reducesTo_S50000x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S512x2048 : Shape := ⟨2, ![512, 2048]⟩
abbrev S50000x2048 : Shape := ⟨2, ![50000, 2048]⟩
abbrev S1024x2048 : Shape := ⟨2, ![1024, 2048]⟩
abbrev S1024 : Shape := ⟨1, ![1024]⟩
abbrev S1x1024 : Shape := ⟨2, ![1, 1024]⟩
abbrev S512x1024 : Shape := ⟨2, ![512, 1024]⟩
abbrev S2048x1024 : Shape := ⟨2, ![2048, 1024]⟩
abbrev S512x50000 : Shape := ⟨2, ![512, 50000]⟩
abbrev S1024x1024 : Shape := ⟨2, ![1024, 1024]⟩

abbrev nBuf : Space → Nat
  | .hbm => 10
  | .vmem => 11
  | .smem => 0
  | _ => 0

abbrev bufTy : (tb : Table) → Fin (tcTables nBuf tb) → BufTy
  | .hbm, ⟨0, _⟩ => ⟨S512x2048, .f32⟩
  | .hbm, ⟨1, _⟩ => ⟨S50000x2048, .f32⟩
  | .hbm, ⟨2, _⟩ => ⟨S1024x2048, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S1x1024, .f32⟩
  | .hbm, ⟨7, _⟩ => ⟨S512x1024, .bf16⟩
  | .hbm, ⟨8, _⟩ => ⟨S1x1024, .f32⟩
  | .hbm, ⟨9, _⟩ => ⟨S512x50000, .f32⟩
  | .local _ .vmem, ⟨0, _⟩ => ⟨S512x2048, .f32⟩
  | .local _ .vmem, ⟨1, _⟩ => ⟨S1024x2048, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1024_S1x1024 : S1024.ShapeCasts S1x1024
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  transposes_S1024x2048_p1_0_S2048x1024 : S1024x2048.Transposes [1, 0] S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  shapeCasts_S512x1024_S512x1024 : S512x1024.ShapeCasts S512x1024
  broadcasts_S1x1024_S1024x1024 : S1x1024.Broadcasts S1024x1024
  transposes_S1024x1024_p1_0_S1024x1024 : S1024x1024.Transposes [1, 0] S1024x1024
  dot_S512x2048_S2048x1024_S512x1024_1_0_0_1_n_n_wf : DotDims.WF S512x2048 S2048x1024 S512x1024 [1] [0] [0] [1] [] []
  dot_S1024x2048_S2048x1024_S1024x1024_1_0_0_1_n_n_wf : DotDims.WF S1024x2048 S2048x1024 S1024x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .f32 = 32 ∨ (Rect.block (s := S512x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x1024.size a
  hwx1_0 : ∀ i : grid1.Coords, EltTy.bits .bf16 = 32 ∨ (Rect.block (s := S512x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1024x2048.size a < S50000x2048.size a
  hwx1_1 : ∀ i : grid1.Coords, EltTy.bits .f32 = 32 ∨ (Rect.unit (s := S50000x2048) (fun a => cc1_transform_1 i a * S1024x2048.size a) (fun a => (Pipeline.Clip.of (cc1_transform_1 i a) (S1024x2048.size a) (S50000x2048.size a)).extent (S1024x2048.size a)) fun a => Pipeline.Clip.inb (Pipeline.Clip.ok_of (hstart1_1 i a))).WholeWords (EltTy.packing .f32)
  hwxs1_1 : ∀ i : grid1.Coords, EltTy.bits .f32 = 32 ∨ (Rect.unit (s := S1024x2048) (fun _ => 0) (fun a => (Pipeline.Clip.of (cc1_transform_1 i a) (S1024x2048.size a) (S50000x2048.size a)).extent (S1024x2048.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S1024x2048.size a
  hwx1_2 : ∀ i : grid1.Coords, EltTy.bits .f32 = 32 ∨ (Rect.block (s := S1024x2048) S1024x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S512x1024.size a < S512x50000.size a
  hwx1_4 : ∀ i : grid1.Coords, EltTy.bits .f32 = 32 ∨ (Rect.unit (s := S512x50000) (fun a => cc1_transform_4 i a * S512x1024.size a) (fun a => (Pipeline.Clip.of (cc1_transform_4 i a) (S512x1024.size a) (S512x50000.size a)).extent (S512x1024.size a)) fun a => Pipeline.Clip.inb (Pipeline.Clip.ok_of (hstart1_4 i a))).WholeWords (EltTy.packing .f32)
  hwxs1_4 : ∀ i : grid1.Coords, EltTy.bits .f32 = 32 ∨ (Rect.unit (s := S512x1024) (fun _ => 0) (fun a => (Pipeline.Clip.of (cc1_transform_4 i a) (S512x1024.size a) (S512x50000.size a)).extent (S512x1024.size a)) fun a => (Nat.zero_add _).trans_le (Pipeline.Clip.extent_le (Pipeline.Clip.ok_of (hstart1_4 i a)))).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg1) S1024x2048.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_arg4) S1024x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpecClip (Memref.whole main_v3) S512x1024.size cc1_transform_4 reads1_4 true false 2 stage1_4 sem1_4
    hrank1 hreads1_4 hstart1_4 nbuf1_4 (Memref.isWhole_whole _) hwx1_4 hwxs1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S512x2048 : Shape := ⟨2, ![512, 2048]⟩
abbrev S50000x2048 : Shape := ⟨2, ![50000, 2048]⟩
abbrev S1024x2048 : Shape := ⟨2, ![1024, 2048]⟩
abbrev S1024 : Shape := ⟨1, ![1024]⟩
abbrev S2048x1024 : Shape := ⟨2, ![2048, 1024]⟩
abbrev S512x1024 : Shape := ⟨2, ![512, 1024]⟩
abbrev S1x1024 : Shape := ⟨2, ![1, 1024]⟩
abbrev S50000x1024 : Shape := ⟨2, ![50000, 1024]⟩
abbrev S512x50000 : Shape := ⟨2, ![512, 50000]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S50000x2048, .f32⟩
  | .hbm, ⟨2, _⟩ => ⟨S1024x2048, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S2048x1024, .f32⟩
  | .hbm, ⟨7, _⟩ => ⟨S512x1024, .f32⟩
  | .hbm, ⟨8, _⟩ => ⟨S1x1024, .f32⟩
  | .hbm, ⟨9, _⟩ => ⟨S512x1024, .f32⟩
  | .hbm, ⟨10, _⟩ => ⟨S512x1024, .f32⟩
  | .hbm, ⟨11, _⟩ => ⟨S2048x1024, .f32⟩
  | .hbm, ⟨12, _⟩ => ⟨S50000x1024, .f32⟩
  | .hbm, ⟨13, _⟩ => ⟨S1x1024, .f32⟩
  | .hbm, ⟨14, _⟩ => ⟨S50000x1024, .f32⟩
  | .hbm, ⟨15, _⟩ => ⟨S50000x1024, .f32⟩
  | .hbm, ⟨16, _⟩ => ⟨S512x50000, .f32⟩
  | .hbm, ⟨17, _⟩ => ⟨S_, .f32⟩
  | .hbm, ⟨18, _⟩ => ⟨S512x50000, .f32⟩
  | .hbm, ⟨19, _⟩ => ⟨S512x50000, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  transposes_S1024x2048_S2048x1024_1_0 : S1024x2048.Transposes [1, 0] S2048x1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S1x1024_S50000x1024_0_1 : S1x1024.BroadcastsInDim S50000x1024 (![0, 1] : Fin 2 → Fin S50000x1024.rank)
  bcast_S_S512x50000 : S_.BroadcastsInDim S512x50000 (![] : Fin 0 → Fin S512x50000.rank)
  dot_S512x2048_S2048x1024_S512x1024_1_0_0_1_n_n_wf : DotDims.WF S512x2048 S2048x1024 S512x1024 [1] [0] [0] [1] [] []
  dot_S50000x2048_S2048x1024_S50000x1024_1_0_0_1_n_n_wf : DotDims.WF S50000x2048 S2048x1024 S50000x1024 [1] [0] [0] [1] [] []
  dot_S512x1024_S50000x1024_S512x50000_1_1_0_0_n_n_wf : DotDims.WF S512x1024 S50000x1024 S512x50000 [1] [1] [0] [0] [] []

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S50000x2048_S2048x1024_S50000x1024_1_0_0_1_n_n : DotDims S50000x2048 S2048x1024 S50000x1024 where
  lhsContracting := [1]
  rhsContracting := [0]
  lhsNonContracting := [0]
  rhsNonContracting := [1]
  lhsBatch := []
  rhsBatch := []
  wf := dot_S50000x2048_S2048x1024_S50000x1024_1_0_0_1_n_n_wf
def dot_S512x1024_S50000x1024_S512x50000_1_1_0_0_n_n : DotDims S512x1024 S50000x1024 S512x50000 where
  lhsContracting := [1]
  rhsContracting := [1]
  lhsNonContracting := [0]
  rhsNonContracting := [0]
  lhsBatch := []
  rhsBatch := []
  wf := dot_S512x1024_S50000x1024_S512x50000_1_1_0_0_n_n_wf

class Facts : Prop extends Facts₀ where

variable [Facts]
-- ==== Proof.Kernel.Body.lean ====
/-
  The two kernel bodies as triples, at any float instance.

  Each body loads its input staging buffers whole, computes one value from them, and stores it whole into its output
  staging buffer (after a load of that buffer whose value nothing reads). So, run on whole staging memrefs with the
  inputs at read contents `x₀ …` and the output at anything, it ends with the inputs as they were and the output at
  that one store's value, written here as the canon of the single whole piece.
-/
import proofs.«176094_j70643622085021_1_alg».proof.Proof.Gen.Kernel.Launch
import proofs.«176094_j70643622085021_1_alg».proof.Proof.Gen.Kernel.Skeleton
import proofs.«176094_j70643622085021_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the bodies access -/

abbrev rA : Rect S512x2048 := Rect.unit (s := S512x2048) ![0, 0] S512x2048.size inb_S512x2048_S512x2048_0_0
abbrev rB : Rect S1024x2048 := Rect.unit (s := S1024x2048) ![0, 0] S1024x2048.size inb_S1024x2048_S1024x2048_0_0
abbrev rC : Rect S1x1024 := Rect.unit (s := S1x1024) ![0, 0] S1x1024.size inb_S1x1024_S1x1024_0_0
abbrev rD : Rect S512x1024 := Rect.unit (s := S512x1024) ![0, 0] S512x1024.size inb_S512x1024_S512x1024_0_0

theorem hz : (![0, 0] : Fin 2 → Nat) = fun _ => 0 := funext fun a => by fin_cases a <;> rfl

/-! ## The molecule encoder's body -/

/-- What the first body leaves in its output buffer, from what its three input buffers hold. -/
def out0 (x0 : Vec F S512x2048 .f32) (x1 : Vec F S1024x2048 .f32) (x2 : Vec F S1x1024 .f32) : Vec F S512x1024 .bf16 :=
  View.canon [⟨rD, k0_pay1 (View.ld x0 rA) (View.ld x1 rB) (View.ld x2 rC)⟩]

theorem cover0 (p0 : Vec F S512x1024 .bf16) (y : S512x1024.Idx) :
    ∃ pc ∈ ([⟨rD, p0⟩] : List (View.Piece (Elt F) S512x1024 .bf16)), y ∈ pc.1.set :=
  View.cover_of_tiled [⟨rD, p0⟩] S512x1024.size (by rfl) y

/-- The single whole store's value is what the buffer holds. -/
theorem out0_eq [∀ e, Nonempty (Elt F e)] (x0 : Vec F S512x2048 .f32) (x1 : Vec F S1024x2048 .f32) (x2 : Vec F S1x1024 .f32) :
    out0 x0 x1 x2 = k0_pay1 x0 x1 x2 := by
  unfold out0
  rw [View.canon_unit_zero hz]
  simp only [View.ld_unit_zero (S := S512x2048) hz, View.ld_unit_zero (S := S1024x2048) hz, View.ld_unit_zero (S := S1x1024) hz]

set_option maxHeartbeats 1000000 in
theorem sound_kernel0 (c : Dev nD) (E : Set ℕ) (i : grid0.Coords)
    (arg1 : Memref sig .tc .vmem S512x2048 .f32) (harg1 : arg1.IsWhole) (arg2 : Memref sig .tc .vmem S1024x2048 .f32) (harg2 : arg2.IsWhole)
    (arg3 : Memref sig .tc .vmem S1x1024 .f32) (harg3 : arg3.IsWhole) (arg4 : Memref sig .tc .vmem S512x1024 .bf16) (harg4 : arg4.IsWhole)
    (x0 : Vec F S512x2048 .f32) (x1 : Vec F S1024x2048 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__xi_kernel i arg1 harg1 arg2 harg2 arg3 harg3 arg4 harg4) K := by
  simp only [cc0__xi_kernel_eq_skeleton]; unfold cc0__xi_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The association body -/

/-- What the second body leaves in its output buffer, from what its four input buffers hold. -/
def out1 (x0 : Vec F S512x1024 .bf16) (x1 : Vec F S1024x2048 .f32) (x2 : Vec F S1024x2048 .f32) (x3 : Vec F S1x1024 .f32) :
    Vec F S512x1024 .f32 :=
  View.canon [⟨rD, k1_pay1 (View.ld x0 rD) (View.ld x1 rB) (View.ld x2 rB) (View.ld x3 rC)⟩]

theorem cover1 (p0 : Vec F S512x1024 .f32) (y : S512x1024.Idx) :
    ∃ pc ∈ ([⟨rD, p0⟩] : List (View.Piece (Elt F) S512x1024 .f32)), y ∈ pc.1.set :=
  View.cover_of_tiled [⟨rD, p0⟩] S512x1024.size (by rfl) y

theorem out1_eq [∀ e, Nonempty (Elt F e)] (x0 : Vec F S512x1024 .bf16) (x1 : Vec F S1024x2048 .f32) (x2 : Vec F S1024x2048 .f32)
    (x3 : Vec F S1x1024 .f32) : out1 x0 x1 x2 x3 = k1_pay1 x0 x1 x2 x3 := by
  unfold out1
  rw [View.canon_unit_zero hz]
  simp only [View.ld_unit_zero (S := S512x1024) hz, View.ld_unit_zero (S := S1024x2048) hz, View.ld_unit_zero (S := S1x1024) hz]

set_option maxHeartbeats 1000000 in
theorem sound_kernel1 (c : Dev nD) (E : Set ℕ) (i : grid1.Coords)
    (arg1 : Memref sig .tc .vmem S512x1024 .bf16) (harg1 : arg1.IsWhole) (arg2 : Memref sig .tc .vmem S1024x2048 .f32) (harg2 : arg2.IsWhole)
    (arg3 : Memref sig .tc .vmem S1024x2048 .f32) (harg3 : arg3.IsWhole) (arg4 : Memref sig .tc .vmem S1x1024 .f32) (harg4 : arg4.IsWhole)
    (arg5 : Memref sig .tc .vmem S512x1024 .f32) (harg5 : arg5.IsWhole)
    (x0 : Vec F S512x1024 .bf16) (x1 : Vec F S1024x2048 .f32) (x2 : Vec F S1024x2048 .f32) (x3 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1 x0 x1 x2 x3)) -∗ K ⟨⟩))
      ⊢ wp frame (wpE (defs₀ (F := F)) Variants.none c none) E
          (cc1__mhn_kernel i arg1 harg1 arg2 harg2 arg3 harg3 arg4 harg4 arg5 harg5) K := by
  simp only [cc1__mhn_kernel_eq_skeleton]; unfold cc1__mhn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

end Cert.Kernel.Body

end
-- ==== Proof.Kernel.Region0.lean ====
/-
  The molecule encoder's region: its proof data and body obligation, at any float instance, at any contents `V` the core's
  buffers hold when the region is entered.

  The grid has one point and every window's block is its whole array. The three input windows' staging buffers hold their
  arrays; after the body the output window's buffer holds the body's one store, a function of those three.
-/
import proofs.«176094_j70643622085021_1_alg».proof.Proof.Kernel.Body

set_option maxRecDepth 16384

noncomputable section

namespace Cert.Kernel.R0

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the region finds them; after the body each input's buffer at its block and the output's
    at the body's store of the three input blocks; the scoped rest and the generator register as invariant; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out0 (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = out0 (iblk V c 0 t) (iblk V c 1 t) (iblk V c 2 t) := by dsimp only [dat]

/-- Each input's current staging buffer holds its block when the body runs. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel0 c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.Kernel.Region1.lean ====
/-
  The association region: its proof data and body obligations, at any float instance, at any contents `V` the core's
  buffers hold when the region is entered.

  The grid has 49 points. The encoded molecules, the template weights and the bias row are whole-array windows fetched
  once; the template window moves down 1024 rows a point and the output window right 1024 columns a point. 49 · 1024 is
  50176, more than the 50000 templates, so at the last point both of those blocks overhang their arrays: the fetch fills
  only the template buffer's leading rows and the write-back moves only the output buffer's leading columns. What lies past
  the array's end in the template buffer is contents `d` nothing names; `tfill` is the template block filled out with
  such a `d`.

  Two obligations are proved of the body. One FORGETS the output window: handed at anything, left at anything (enough for
  a claim that does not read the result). The other names what the body leaves in the output buffer on the columns the
  write-back moves, and holds whenever those columns do not depend on the filler `d` (`hcut`).
-/
import proofs.«176094_j70643622085021_1_alg».proof.Proof.Kernel.Body

set_option maxRecDepth 16384

noncomputable section

namespace Cert.Kernel.R1

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, its part inside the array, read off the array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The template block at point `t` filled out to the whole staging buffer by `d` past the array's end. -/
def tfill (c : Dev nD) (t : Fin cfg1.N) (d : S1024x2048.Idx → Elt F .f32) : S1024x2048.Idx → Elt F .f32 :=
  win1_1.fill (grid1.coords t) d (iblk V c 1 t)

/-- A filler for the proof data to name: the zero word (nothing reads it). -/
def zfill : S1024x2048.Idx → Elt F .f32 := fun _ => Scalar.ofBits .f32 0#32

/-- The proof data: the arrays as the region finds them; after the body each whole-array input's buffer at its array, the
    template buffer at its block filled out with the zero word, the output's at the body's store of those; the scoped rest
    and the generator register as invariant; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => tfill V c t zfill
    | ⟨2, _⟩ => iblk V c 2 t
    | ⟨3, _⟩ => iblk V c 3 t
    | ⟨4, _⟩ => out1 (iblk V c 0 t) (tfill V c t zfill) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := by dsimp only [dat]

theorem after_0 (c : Dev nD) (t : Fin cfg1.N) : (dat V c).after 0 t = iblk V c 0 t := by dsimp only [dat]
theorem after_1 (c : Dev nD) (t : Fin cfg1.N) : (dat V c).after 1 t = tfill V c t zfill := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = out1 (iblk V c 0 t) (tfill V c t zfill) (iblk V c 2 t) (iblk V c 3 t) := by dsimp only [dat]

/-- The whole-array inputs' buffers hold their arrays when the body runs, fetched at this point or at the first. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
/-- The template buffer, fetched at every point, holds its block filled out by whatever it held. -/
theorem before_1 (c : Dev nD) (t : Fin cfg1.N) (d) : (dat V c).before 1 t d = tfill V c t d :=
  ((dat V c).before_fetched 1 t (fetch1_1 t) d).trans (by unfold Dat.fetched Dat.blockOf tfill iblk; rw [A_eq]; try rfl)

/-- The part of the template buffer the fetch moves is the block, whatever fills out the rest. -/
theorem cut_tfill (c : Dev nD) (t : Fin cfg1.N) (d) : win1_1.cut (grid1.coords t) (tfill V c t d) = iblk V c 1 t :=
  win1_1.cut_fill _ _ _

/-- The output window is the one a frame may forget. -/
abbrev fgt : Fin cfg1.W → Bool := fun | 0 => false | 1 => false | 2 => false | 3 => false | 4 => true | ⟨_ + 5, h⟩ => absurd h (Nat.not_lt.2 (Nat.le_add_left _ _))

/-- THE FORGETTING OBLIGATION: the inputs' buffers found at their blocks and left so (the template buffer on the rows the
    fetch moves), the output's handed at anything and left at anything. -/
theorem body_obligation_fgt (c : Dev nD) :
    BodyObligationLoose (dat (F := F) V c) (defs₀ (F := F)) Variants.none () Set.univ fgt := fun t => by
  rw [bigSep_W1, bigSep_W1]
  simp only
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩, ⟨%d3, H3⟩, ⟨%X4, H4⟩⟩
  rw [before_0 V c t d0, before_1 V c t d1, before_2 V c t d2, before_3 V c t d3]
  iapply (sound_kernel1 (F := F) c Set.univ (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4))
    (iblk V c 0 t) (tfill V c t d1) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · rw [after_0]; iexact H0
  isplitl [H1]
  · iexists d1
    rw [after_1, cut_tfill]; iexact H1
  isplitl [H2]; · rw [after_2]; iexact H2
  isplitl [H3]; · rw [after_3]; iexact H3
  iexists _; iexact H4

/-- THE EXACT OBLIGATION, given that the columns of the body's result that the write-back moves do not depend on what fills
    out the template buffer past the array's end. -/
theorem body_obligation_of_cut
    (hcut : ∀ (c : Dev nD) (t : Fin cfg1.N) (d : S1024x2048.Idx → Elt F .f32),
      win1_4.cut (grid1.coords t) (out1 (iblk V c 0 t) (tfill V c t d) (iblk V c 2 t) (iblk V c 3 t))
        = win1_4.cut (grid1.coords t) (out1 (iblk V c 0 t) (tfill V c t zfill) (iblk V c 2 t) (iblk V c 3 t)))
    (c : Dev nD) : BodyObligationLoose (dat (F := F) V c) (defs₀ (F := F)) Variants.none () Set.univ := fun t => by
  rw [bigSep_W1, bigSep_W1]
  simp only
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩, ⟨%d3, H3⟩, ⟨%d4, H4⟩⟩
  rw [before_0 V c t d0, before_1 V c t d1, before_2 V c t d2, before_3 V c t d3]
  iapply (sound_kernel1 (F := F) c Set.univ (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4))
    (iblk V c 0 t) (tfill V c t d1) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · rw [after_0]; iexact H0
  isplitl [H1]
  · iexists d1
    rw [after_1, cut_tfill]; iexact H1
  isplitl [H2]; · rw [after_2]; iexact H2
  isplitl [H3]; · rw [after_3]; iexact H3
  iexists out1 (iblk V c 0 t) (tfill V c t d1) (iblk V c 2 t) (iblk V c 3 t)
  rw [after_4, win1_4.fill_congr_cut (grid1.coords t) (hcut c t d1)]
  iexact H4

end Cert.Kernel.R1

end
-- ==== Proof.Kernel.Frame.lean ====
/-
  The frame of the word-level program: it runs to the end, faults nowhere, and leaves its six argument arrays as launched.

  @main is four items: a host reshape of the molecule bias, the molecule encoder's region, a host reshape of the template
  bias, the association region. Between items every unscoped buffer of a core is held whole at named contents: the launch
  memory, then the host stretch's results, then what the first region's one write-back leaves in its output array.

  The last region is different. Its template block overhangs the array at the last grid point, so the staging buffer's
  tail holds words nothing names; at the word level the matrix unit's result is a function of its WHOLE operand, so what
  the body leaves in the output buffer is not a named function of the arguments. The frame does not read the result: the
  last region's proof data FORGET the output window (the body is handed that buffer at anything and leaves it at anything),
  every other window still named. Nothing runs after that region, so no later item needs the forgotten array's contents.
  At the end the arguments are read back: those that are input windows' arrays of the last region are never written by it,
  the others bypass it at the contents they entered with, and no host stretch or earlier region writes an argument.
-/
import proofs.«176094_j70643622085021_1_alg».proof.Proof.Kernel.Region0
import proofs.«176094_j70643622085021_1_alg».proof.Proof.Kernel.Region1
import proofs.«176094_j70643622085021_1_alg».proof.Proof.Gen.Kernel.Regions
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Frame

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the molecule encoder's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the molecule encoder's exit: its arrays at what its write-back leaves, every other buffer as entered. -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (the association region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-! ### An argument reaches the last region's entry as launched -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- An argument that is no window's array of the first region. -/
theorem W3_bypass (c : Dev nD) (r : Ref sig .tc) (h1 : r ∉ hostOps1_W) (h0 : r ∉ hostOps0_W) (hw : ∀ w, Pipeline.arrRef spec0 w ≠ r) :
    W3 m ρ c (Proc.devRef .tc r) = m ((c : Thread nD τ).loc r) :=
  (W3_of m ρ c r h1).trans <| (W2_of_ne m ρ c r hw).trans <| (W1_of m ρ c r h0).trans rfl
/-- An argument that is an input window's array of the first region. -/
theorem W3_input (c : Dev nD) (w : Fin cfg0.W) (hin : (cfg0.win w).isOut = false) (h1 : Pipeline.arrRef spec0 w ∉ hostOps1_W)
    (h0 : Pipeline.arrRef spec0 w ∉ hostOps0_W) :
    W3 m ρ c (Proc.devRef .tc (Pipeline.arrRef spec0 w)) = m ((c : Thread nD τ).loc (Pipeline.arrRef spec0 w)) :=
  (W3_of m ρ c _ h1).trans <| (W2_arr m ρ c w).trans <| ((R0.dat (V1 m ρ) c).arrAt_in w hin _).trans <|
    (R0.A_eq (V1 m ρ) c w).trans <| (W1_of m ρ c _ h0).trans rfl

theorem V3_main_arg0 (c : Dev nD) : V3 m ρ c main_arg0 = m ((c : Thread nD τ).loc main_arg0) :=
  W3_input m ρ c 0 rfl (by decide) (by decide)
theorem V3_main_arg1 (c : Dev nD) : V3 m ρ c main_arg1 = m ((c : Thread nD τ).loc main_arg1) :=
  W3_bypass m ρ c main_arg1 (by decide) (by decide) (by decide)
theorem V3_main_arg2 (c : Dev nD) : V3 m ρ c main_arg2 = m ((c : Thread nD τ).loc main_arg2) :=
  W3_input m ρ c 1 rfl (by decide) (by decide)
theorem V3_main_arg3 (c : Dev nD) : V3 m ρ c main_arg3 = m ((c : Thread nD τ).loc main_arg3) :=
  W3_bypass m ρ c main_arg3 (by decide) (by decide) (by decide)
theorem V3_main_arg4 (c : Dev nD) : V3 m ρ c main_arg4 = m ((c : Thread nD τ).loc main_arg4) :=
  W3_bypass m ρ c main_arg4 (by decide) (by decide) (by decide)
theorem V3_main_arg5 (c : Dev nD) : V3 m ρ c main_arg5 = m ((c : Thread nD τ).loc main_arg5) :=
  W3_bypass m ρ c main_arg5 (by decide) (by decide) (by decide)

/-! ## The proof data families and the thread state -/

abbrev adm : (p : Fin 2) → (pcfgs (F := F) p).Adm := fun p => (cfgs p).toPCfg_adm

/-- The exact data of each pipeline, each at its region's entry contents. -/
def pdats : (p : Fin 2) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V3 m ρ) c
/-- The same read relationally, the last region's output window forgotten. -/
def rdats : (p : Fin 2) → (c : Dev nD) → RDat τ (Elt F) Unit ℕ (UR sig nD τ) ℕ (Pipeline.pin (pcfgs (F := F)) adm p) c
  | ⟨0, _⟩ => fun c => (R0.dat (V1 m ρ) c).toR
  | ⟨1, _⟩ => fun c => (R1.dat (V3 m ρ) c).toRForget R1.fgt
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state (beside the core owing nothing): the association region's arrays at some contents they may
    hold after its write-backs, the buffers that bypass it as entered, the generator register at some state. -/
abbrev Tₙ (c : Dev nD) : sProp 𝕄 :=
  iprop((rdats m ρ 1 c).arraysAt cfg1.N
    ∗ Pipeline.unscopedRest (Ix := Unit) (Name := ℕ) (U := UR sig nD τ) (Lvl := ℕ) spec1 c (V3 m ρ c) ∗ ∃ r, prngReg c r)

/-! ## The regions as segments -/

set_option backward.isDefEq.respectTransparency.types false in
/-- The molecule encoder's region, exact data read relationally: entered from every unscoped buffer at `W1`, left at `W2`. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose.toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.RDat.arrays_of_unscopedBufs (p := 0) (pcfgs (F := F)) adm (rdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    rw [show (rdats m ρ 0 c).arraysAt (Pipeline.pin (pcfgs (F := F)) adm 0).N = ((pdats m ρ 0 c).arrays ((pdats m ρ 0 c).arrAt · cfg0.N) : sProp 𝕄)
      from (R0.dat (V1 m ρ) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The association region, its output window forgotten: entered from every unscoped buffer at `W3`, left holding its
    arrays at some contents they may have and the bypassing buffers as entered. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation_fgt (V3 m ρ) c).toRForget
  hwaits := Pipeline.RDat.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.RDat.arrays_of_unscopedBufs (p := 1) (pcfgs (F := F)) adm (rdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.RDat.Seg.run (segs m ρ) := (main_chain c).trans (by chain_rfl)

set_option backward.isDefEq.respectTransparency.types false in
/-- THE FRAME, at any float instance: every weakly fair execution of @main from memory `m` with zero counters terminates,
    nothing faulting, and every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.RDat.θ_run_regions_kit (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s =>
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => by
      iintro ⟨⟨Ha, Hrest, -⟩, HSI⟩
      ihave Hr := (Pipeline.RDat.arrays_read (pcfgs (F := F)) adm (rdats m ρ) (p := 1) launch1.arr_whole c cfg1.N s') $$ [Ha HSI]
      · isplitl [Ha] <;> iassumption
      icases Hr with ⟨%ha, HSI⟩
      unfold Pipeline.unscopedRest
      ihave Hr2 := (pointsTo_read_all _ (fun b : Ref sig .tc => (c.tc : Thread nD τ).loc b) (V3 m ρ c) s') $$ [Hrest HSI]
      · isplitl [Hrest] <;> iassumption
      icases Hr2 with ⟨%hb, HSI⟩
      imodintro
      isplitr
      · ipureintro
        have hin : ∀ (w : Fin cfg1.W) (hw : (cfg1.win w).isOut = false),
            s'.mem.mem ((cfg1.win w).arr.view.loc (c.tc : Thread nD τ)) = V3 m ρ c (Pipeline.arrRef spec1 w) := fun w hw => by
          have h := ha w
          rw [(rdats m ρ 1 c).ArrAt_in w hw cfg1.N] at h
          exact h
        exact ⟨(hb main_arg0 (by decide)).trans (V3_main_arg0 m ρ c), (hin 1 rfl).trans (V3_main_arg1 m ρ c),
          (hb main_arg2 (by decide)).trans (V3_main_arg2 m ρ c), (hb main_arg3 (by decide)).trans (V3_main_arg3 m ρ c),
          (hin 2 rfl).trans (V3_main_arg4 m ρ c), (hb main_arg5 (by decide)).trans (V3_main_arg5 m ρ c)⟩
      · iexact HSI)
    (hQ := fun s h c => h c)

end Cert.Kernel.Frame

end
-- ==== Proof.KernelIdeal.Body.lean ====
/-
  The two kernel bodies as triples, at any float instance.

  Each body loads its input staging buffers whole, computes one value from them, and stores it whole into its output
  staging buffer (after a load of that buffer whose value nothing reads). So, run on whole staging memrefs with the
  inputs at read contents `x₀ …` and the output at anything, it ends with the inputs as they were and the output at
  that one store's value, written here as the canon of the single whole piece.
-/
import proofs.«176094_j70643622085021_1_alg».proof.Proof.Gen.KernelIdeal.Launch
import proofs.«176094_j70643622085021_1_alg».proof.Proof.Gen.KernelIdeal.Skeleton
import proofs.«176094_j70643622085021_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the bodies access -/

abbrev rA : Rect S512x2048 := Rect.unit (s := S512x2048) ![0, 0] S512x2048.size inb_S512x2048_S512x2048_0_0
abbrev rB : Rect S1024x2048 := Rect.unit (s := S1024x2048) ![0, 0] S1024x2048.size inb_S1024x2048_S1024x2048_0_0
abbrev rC : Rect S1x1024 := Rect.unit (s := S1x1024) ![0, 0] S1x1024.size inb_S1x1024_S1x1024_0_0
abbrev rD : Rect S512x1024 := Rect.unit (s := S512x1024) ![0, 0] S512x1024.size inb_S512x1024_S512x1024_0_0

theorem hz : (![0, 0] : Fin 2 → Nat) = fun _ => 0 := funext fun a => by fin_cases a <;> rfl

/-! ## The molecule encoder's body -/

/-- What the first body leaves in its output buffer, from what its three input buffers hold. -/
def out0 (x0 : Vec F S512x2048 .f32) (x1 : Vec F S1024x2048 .f32) (x2 : Vec F S1x1024 .f32) : Vec F S512x1024 .bf16 :=
  View.canon [⟨rD, k0_pay1 (View.ld x0 rA) (View.ld x1 rB) (View.ld x2 rC)⟩]

theorem cover0 (p0 : Vec F S512x1024 .bf16) (y : S512x1024.Idx) :
    ∃ pc ∈ ([⟨rD, p0⟩] : List (View.Piece (Elt F) S512x1024 .bf16)), y ∈ pc.1.set :=
  View.cover_of_tiled [⟨rD, p0⟩] S512x1024.size (by rfl) y

/-- The single whole store's value is what the buffer holds. -/
theorem out0_eq [∀ e, Nonempty (Elt F e)] (x0 : Vec F S512x2048 .f32) (x1 : Vec F S1024x2048 .f32) (x2 : Vec F S1x1024 .f32) :
    out0 x0 x1 x2 = k0_pay1 x0 x1 x2 := by
  unfold out0
  rw [View.canon_unit_zero hz]
  simp only [View.ld_unit_zero (S := S512x2048) hz, View.ld_unit_zero (S := S1024x2048) hz, View.ld_unit_zero (S := S1x1024) hz]

set_option maxHeartbeats 1000000 in
theorem sound_kernel0 (c : Dev nD) (E : Set ℕ) (i : grid0.Coords)
    (arg1 : Memref sig .tc .vmem S512x2048 .f32) (harg1 : arg1.IsWhole) (arg2 : Memref sig .tc .vmem S1024x2048 .f32) (harg2 : arg2.IsWhole)
    (arg3 : Memref sig .tc .vmem S1x1024 .f32) (harg3 : arg3.IsWhole) (arg4 : Memref sig .tc .vmem S512x1024 .bf16) (harg4 : arg4.IsWhole)
    (x0 : Vec F S512x2048 .f32) (x1 : Vec F S1024x2048 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__xi_kernel i arg1 harg1 arg2 harg2 arg3 harg3 arg4 harg4) K := by
  simp only [cc0__xi_kernel_eq_skeleton]; unfold cc0__xi_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The association body -/

/-- What the second body leaves in its output buffer, from what its four input buffers hold. -/
def out1 (x0 : Vec F S512x1024 .bf16) (x1 : Vec F S1024x2048 .f32) (x2 : Vec F S1024x2048 .f32) (x3 : Vec F S1x1024 .f32) :
    Vec F S512x1024 .f32 :=
  View.canon [⟨rD, k1_pay1 (View.ld x0 rD) (View.ld x1 rB) (View.ld x2 rB) (View.ld x3 rC)⟩]

theorem cover1 (p0 : Vec F S512x1024 .f32) (y : S512x1024.Idx) :
    ∃ pc ∈ ([⟨rD, p0⟩] : List (View.Piece (Elt F) S512x1024 .f32)), y ∈ pc.1.set :=
  View.cover_of_tiled [⟨rD, p0⟩] S512x1024.size (by rfl) y

theorem out1_eq [∀ e, Nonempty (Elt F e)] (x0 : Vec F S512x1024 .bf16) (x1 : Vec F S1024x2048 .f32) (x2 : Vec F S1024x2048 .f32)
    (x3 : Vec F S1x1024 .f32) : out1 x0 x1 x2 x3 = k1_pay1 x0 x1 x2 x3 := by
  unfold out1
  rw [View.canon_unit_zero hz]
  simp only [View.ld_unit_zero (S := S512x1024) hz, View.ld_unit_zero (S := S1024x2048) hz, View.ld_unit_zero (S := S1x1024) hz]

set_option maxHeartbeats 1000000 in
theorem sound_kernel1 (c : Dev nD) (E : Set ℕ) (i : grid1.Coords)
    (arg1 : Memref sig .tc .vmem S512x1024 .bf16) (harg1 : arg1.IsWhole) (arg2 : Memref sig .tc .vmem S1024x2048 .f32) (harg2 : arg2.IsWhole)
    (arg3 : Memref sig .tc .vmem S1024x2048 .f32) (harg3 : arg3.IsWhole) (arg4 : Memref sig .tc .vmem S1x1024 .f32) (harg4 : arg4.IsWhole)
    (arg5 : Memref sig .tc .vmem S512x1024 .f32) (harg5 : arg5.IsWhole)
    (x0 : Vec F S512x1024 .bf16) (x1 : Vec F S1024x2048 .f32) (x2 : Vec F S1024x2048 .f32) (x3 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1 x0 x1 x2 x3)) -∗ K ⟨⟩))
      ⊢ wp frame (wpE (defs₀ (F := F)) Variants.none c none) E
          (cc1__mhn_kernel i arg1 harg1 arg2 harg2 arg3 harg3 arg4 harg4 arg5 harg5) K := by
  simp only [cc1__mhn_kernel_eq_skeleton]; unfold cc1__mhn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

end Cert.KernelIdeal.Body

end
-- ==== Proof.KernelIdeal.Region0.lean ====
/-
  The molecule encoder's region: its proof data and body obligation, at any float instance, at any contents `V` the core's
  buffers hold when the region is entered.

  The grid has one point and every window's block is its whole array. The three input windows' staging buffers hold their
  arrays; after the body the output window's buffer holds the body's one store, a function of those three.
-/
import proofs.«176094_j70643622085021_1_alg».proof.Proof.KernelIdeal.Body

set_option maxRecDepth 16384

noncomputable section

namespace Cert.KernelIdeal.R0

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the region finds them; after the body each input's buffer at its block and the output's
    at the body's store of the three input blocks; the scoped rest and the generator register as invariant; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out0 (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = out0 (iblk V c 0 t) (iblk V c 1 t) (iblk V c 2 t) := by dsimp only [dat]

/-- Each input's current staging buffer holds its block when the body runs. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel0 c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.KernelIdeal.Region1.lean ====
/-
  The association region: its proof data and body obligations, at any float instance, at any contents `V` the core's
  buffers hold when the region is entered.

  The grid has 49 points. The encoded molecules, the template weights and the bias row are whole-array windows fetched
  once; the template window moves down 1024 rows a point and the output window right 1024 columns a point. 49 · 1024 is
  50176, more than the 50000 templates, so at the last point both of those blocks overhang their arrays: the fetch fills
  only the template buffer's leading rows and the write-back moves only the output buffer's leading columns. What lies past
  the array's end in the template buffer is contents `d` nothing names; `tfill` is the template block filled out with
  such a `d`.

  Two obligations are proved of the body. One FORGETS the output window: handed at anything, left at anything (enough for
  a claim that does not read the result). The other names what the body leaves in the output buffer on the columns the
  write-back moves, and holds whenever those columns do not depend on the filler `d` (`hcut`).
-/
import proofs.«176094_j70643622085021_1_alg».proof.Proof.KernelIdeal.Body

set_option maxRecDepth 16384

noncomputable section

namespace Cert.KernelIdeal.R1

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, its part inside the array, read off the array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The template block at point `t` filled out to the whole staging buffer by `d` past the array's end. -/
def tfill (c : Dev nD) (t : Fin cfg1.N) (d : S1024x2048.Idx → Elt F .f32) : S1024x2048.Idx → Elt F .f32 :=
  win1_1.fill (grid1.coords t) d (iblk V c 1 t)

/-- A filler for the proof data to name: the zero word (nothing reads it). -/
def zfill : S1024x2048.Idx → Elt F .f32 := fun _ => Scalar.ofBits .f32 0#32

/-- The proof data: the arrays as the region finds them; after the body each whole-array input's buffer at its array, the
    template buffer at its block filled out with the zero word, the output's at the body's store of those; the scoped rest
    and the generator register as invariant; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => tfill V c t zfill
    | ⟨2, _⟩ => iblk V c 2 t
    | ⟨3, _⟩ => iblk V c 3 t
    | ⟨4, _⟩ => out1 (iblk V c 0 t) (tfill V c t zfill) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := by dsimp only [dat]

theorem after_0 (c : Dev nD) (t : Fin cfg1.N) : (dat V c).after 0 t = iblk V c 0 t := by dsimp only [dat]
theorem after_1 (c : Dev nD) (t : Fin cfg1.N) : (dat V c).after 1 t = tfill V c t zfill := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = out1 (iblk V c 0 t) (tfill V c t zfill) (iblk V c 2 t) (iblk V c 3 t) := by dsimp only [dat]

/-- The whole-array inputs' buffers hold their arrays when the body runs, fetched at this point or at the first. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
/-- The template buffer, fetched at every point, holds its block filled out by whatever it held. -/
theorem before_1 (c : Dev nD) (t : Fin cfg1.N) (d) : (dat V c).before 1 t d = tfill V c t d :=
  ((dat V c).before_fetched 1 t (fetch1_1 t) d).trans (by unfold Dat.fetched Dat.blockOf tfill iblk; rw [A_eq]; try rfl)

/-- The part of the template buffer the fetch moves is the block, whatever fills out the rest. -/
theorem cut_tfill (c : Dev nD) (t : Fin cfg1.N) (d) : win1_1.cut (grid1.coords t) (tfill V c t d) = iblk V c 1 t :=
  win1_1.cut_fill _ _ _

/-- The output window is the one a frame may forget. -/
abbrev fgt : Fin cfg1.W → Bool := fun | 0 => false | 1 => false | 2 => false | 3 => false | 4 => true | ⟨_ + 5, h⟩ => absurd h (Nat.not_lt.2 (Nat.le_add_left _ _))

/-- THE FORGETTING OBLIGATION: the inputs' buffers found at their blocks and left so (the template buffer on the rows the
    fetch moves), the output's handed at anything and left at anything. -/
theorem body_obligation_fgt (c : Dev nD) :
    BodyObligationLoose (dat (F := F) V c) (defs₀ (F := F)) Variants.none () Set.univ fgt := fun t => by
  rw [bigSep_W1, bigSep_W1]
  simp only
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩, ⟨%d3, H3⟩, ⟨%X4, H4⟩⟩
  rw [before_0 V c t d0, before_1 V c t d1, before_2 V c t d2, before_3 V c t d3]
  iapply (sound_kernel1 (F := F) c Set.univ (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4))
    (iblk V c 0 t) (tfill V c t d1) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · rw [after_0]; iexact H0
  isplitl [H1]
  · iexists d1
    rw [after_1, cut_tfill]; iexact H1
  isplitl [H2]; · rw [after_2]; iexact H2
  isplitl [H3]; · rw [after_3]; iexact H3
  iexists _; iexact H4

/-- THE EXACT OBLIGATION, given that the columns of the body's result that the write-back moves do not depend on what fills
    out the template buffer past the array's end. -/
theorem body_obligation_of_cut
    (hcut : ∀ (c : Dev nD) (t : Fin cfg1.N) (d : S1024x2048.Idx → Elt F .f32),
      win1_4.cut (grid1.coords t) (out1 (iblk V c 0 t) (tfill V c t d) (iblk V c 2 t) (iblk V c 3 t))
        = win1_4.cut (grid1.coords t) (out1 (iblk V c 0 t) (tfill V c t zfill) (iblk V c 2 t) (iblk V c 3 t)))
    (c : Dev nD) : BodyObligationLoose (dat (F := F) V c) (defs₀ (F := F)) Variants.none () Set.univ := fun t => by
  rw [bigSep_W1, bigSep_W1]
  simp only
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩, ⟨%d3, H3⟩, ⟨%d4, H4⟩⟩
  rw [before_0 V c t d0, before_1 V c t d1, before_2 V c t d2, before_3 V c t d3]
  iapply (sound_kernel1 (F := F) c Set.univ (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4))
    (iblk V c 0 t) (tfill V c t d1) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · rw [after_0]; iexact H0
  isplitl [H1]
  · iexists d1
    rw [after_1, cut_tfill]; iexact H1
  isplitl [H2]; · rw [after_2]; iexact H2
  isplitl [H3]; · rw [after_3]; iexact H3
  iexists out1 (iblk V c 0 t) (tfill V c t d1) (iblk V c 2 t) (iblk V c 3 t)
  rw [after_4, win1_4.fill_congr_cut (grid1.coords t) (hcut c t d1)]
  iexact H4

end Cert.KernelIdeal.R1

end
-- ==== Proof.KernelIdeal.Run.lean ====
/-
  The run of the ideal program, at any float instance: it runs to the end, faults nowhere, leaves in its result array what
  the association region's write-backs leave, and leaves its six argument arrays as launched.

  @main is four items: a host reshape of the molecule bias, the molecule encoder's region, a host reshape of the template
  bias, the association region. Between items every unscoped buffer of a core is held whole at named contents:
    * at launch, the launch memory;
    * after the first reshape, that with the molecule bias laid out as a row;
    * after the molecule encoder, that with the encoder's four arrays at what its one write-back leaves: the three inputs
      as entered, the encoded molecules at the body's store;
    * after the second reshape, that with the template bias laid out as a row;
    * after the association region, that with the region's five arrays at what its 49 write-backs leave: the four inputs
      as entered, the result at the written-back columns folded over the points.
  Each region's proof data are stated at the contents the region is entered with, so the result array's final contents
  are a named function of the launch memory.

  The association region's template block overhangs its array at the last grid point. Its exact body obligation holds
  when the written-back columns of the body's result do not depend on what fills the template buffer past the array's
  end; the run takes that as its hypothesis.

  At the end every buffer is read off the last contents. An argument that is an input window's array of a region is never
  written by it; one that is no window's array of a region bypasses it at the contents it entered with; a reshape writes
  only its own result row. So each argument walks back through the four items to the launch memory.
-/
import proofs.«176094_j70643622085021_1_alg».proof.Proof.KernelIdeal.Region0
import proofs.«176094_j70643622085021_1_alg».proof.Proof.KernelIdeal.Region1
import proofs.«176094_j70643622085021_1_alg».proof.Proof.Gen.KernelIdeal.Regions
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch: the launch memory. -/
abbrev M0 : Dev nD → Valuation τ sig (Elt F) := fun c b => (s₀ m ρ).mem ((c : Dev nD), b)
/-- After the first reshape, where the molecule encoder is entered. -/
abbrev M1 : Dev nD → Valuation τ sig (Elt F) := fun c => StableHlo.after hostOps0 (M0 m ρ c)
/-- The same, read at the core's own references: the contents at the molecule encoder's entry. -/
abbrev V1 : (c : Dev nD) → (b : Ref sig .tc) → Buf (Elt F) ((c : Thread nD τ).loc b) := fun c b => M1 m ρ c b
/-- At the molecule encoder's exit: its four arrays at what its write-back leaves, every other buffer as entered. -/
def M2 (c : Dev nD) : Valuation τ sig (Elt F) :=
  Pipeline.withArrays spec0 c (M1 m ρ c) fun w => (R0.dat (V1 m ρ) c).arrAt w cfg0.N
/-- An array of the molecule encoder holds what the write-back leaves in it, -/
theorem M2_arr (c : Dev nD) (w : Fin cfg0.W) :
    M2 m ρ c (Proc.devRef .tc (Pipeline.arrRef spec0 w)) = (R0.dat (V1 m ρ) c).arrAt w cfg0.N := by
  unfold M2; exact Pipeline.withArrays_arr spec0 launch0.win.arr_inj c _ _ w
/-- and a buffer that is none of them holds what it held at entry. -/
theorem M2_off (c : Dev nD) (b : Ref sig .tc) (hb : ∀ w, Pipeline.arrRef spec0 w ≠ b) :
    M2 m ρ c (Proc.devRef .tc b) = M1 m ρ c (Proc.devRef .tc b) := by
  unfold M2; exact Pipeline.withArrays_of_ne spec0 c _ _ b hb
abbrev V2 : (c : Dev nD) → (b : Ref sig .tc) → Buf (Elt F) ((c : Thread nD τ).loc b) := fun c b => M2 m ρ c b
theorem exitArr0 (c : Dev nD) (w : Fin cfg0.W) : (R0.dat (V1 m ρ) c).arrAt w cfg0.N = V2 m ρ c (Pipeline.arrRef spec0 w) :=
  (M2_arr m ρ c w).symm
theorem exitRest0 (c : Dev nD) : ∀ b, b ∉ Finset.univ.image (Pipeline.arrRef spec0) → V2 m ρ c b = V1 m ρ c b :=
  fun b hb => M2_off m ρ c b fun w e => hb (Finset.mem_image.mpr ⟨w, Finset.mem_univ _, e⟩)

/-- After the second reshape, where the association region is entered. -/
abbrev M3 : Dev nD → Valuation τ sig (Elt F) := fun c => StableHlo.after hostOps1 (M2 m ρ c)
/-- The same, read at the core's own references: the contents at the association region's entry. -/
abbrev V3 : (c : Dev nD) → (b : Ref sig .tc) → Buf (Elt F) ((c : Thread nD τ).loc b) := fun c b => M3 m ρ c b
/-- At the association region's exit: its five arrays at what its write-backs leave, every other buffer as entered. -/
def M4 (c : Dev nD) : Valuation τ sig (Elt F) :=
  Pipeline.withArrays spec1 c (M3 m ρ c) fun w => (R1.dat (V3 m ρ) c).arrAt w cfg1.N
theorem M4_arr (c : Dev nD) (w : Fin cfg1.W) :
    M4 m ρ c (Proc.devRef .tc (Pipeline.arrRef spec1 w)) = (R1.dat (V3 m ρ) c).arrAt w cfg1.N := by
  unfold M4; exact Pipeline.withArrays_arr spec1 launch1.win.arr_inj c _ _ w
theorem M4_off (c : Dev nD) (b : Ref sig .tc) (hb : ∀ w, Pipeline.arrRef spec1 w ≠ b) :
    M4 m ρ c (Proc.devRef .tc b) = M3 m ρ c (Proc.devRef .tc b) := by
  unfold M4; exact Pipeline.withArrays_of_ne spec1 c _ _ b hb
abbrev V4 : (c : Dev nD) → (b : Ref sig .tc) → Buf (Elt F) ((c : Thread nD τ).loc b) := fun c b => M4 m ρ c b
theorem exitArr1 (c : Dev nD) (w : Fin cfg1.W) : (R1.dat (V3 m ρ) c).arrAt w cfg1.N = V4 m ρ c (Pipeline.arrRef spec1 w) :=
  (M4_arr m ρ c w).symm
theorem exitRest1 (c : Dev nD) : ∀ b, b ∉ Finset.univ.image (Pipeline.arrRef spec1) → V4 m ρ c b = V3 m ρ c b :=
  fun b hb => M4_off m ρ c b fun w e => hb (Finset.mem_image.mpr ⟨w, Finset.mem_univ _, e⟩)

/-! ## What a reshape leaves alone, and what it writes -/

/-- The first reshape writes only the molecule bias's row. -/
theorem M1_keep (c : Dev nD) (r : Ref sig .tc) (h : r ∉ hostOps0_W) : M1 m ρ c (Proc.devRef .tc r) = M0 m ρ c (Proc.devRef .tc r) :=
  StableHlo.after_of_writes_sub hostOps0 _ hostOps0_writes h
/-- The second reshape writes only the template bias's row. -/
theorem M3_keep (c : Dev nD) (r : Ref sig .tc) (h : r ∉ hostOps1_W) : M3 m ρ c (Proc.devRef .tc r) = M2 m ρ c (Proc.devRef .tc r) :=
  StableHlo.after_of_writes_sub hostOps1 _ hostOps1_writes h

/-! ## The molecule encoder's entry contents -/

theorem V1_main_arg0 (c : Dev nD) : V1 m ρ c main_arg0 = m ((c : Thread nD τ).loc main_arg0) :=
  (M1_keep m ρ c main_arg0 (by decide)).trans rfl
theorem V1_main_arg2 (c : Dev nD) : V1 m ρ c main_arg2 = m ((c : Thread nD τ).loc main_arg2) :=
  (M1_keep m ρ c main_arg2 (by decide)).trans rfl
/-- The molecule bias's row holds the bias vector's 1024 entries in order. -/
theorem V1_main_v0 (c : Dev nD) :
    V1 m ρ c main_v0 = shapeCast S1x1024 (m ((c : Thread nD τ).loc main_arg3)) shapeCasts_S1024_S1x1024 := by
  show StableHlo.after hostOps0 (fun b => m (c, b)) (Proc.devRef .tc main_v0) = _
  after_results
  rfl

/-! ## The association region's entry contents -/

/-- A buffer that neither reshape writes and that is no array of the molecule encoder reaches the association region
    as launched. -/
theorem M3_bypass (c : Dev nD) (r : Ref sig .tc) (h1 : r ∉ hostOps1_W) (h0 : r ∉ hostOps0_W) (hw : ∀ w, Pipeline.arrRef spec0 w ≠ r) :
    M3 m ρ c (Proc.devRef .tc r) = m ((c : Thread nD τ).loc r) :=
  (M3_keep m ρ c r h1).trans <| (M2_off m ρ c r hw).trans <| (M1_keep m ρ c r h0).trans rfl
/-- An input window's array of the molecule encoder that neither reshape writes reaches the association region as
    launched: the encoder never writes it. -/
theorem M3_input (c : Dev nD) (w : Fin cfg0.W) (hin : (cfg0.win w).isOut = false) (h1 : Pipeline.arrRef spec0 w ∉ hostOps1_W)
    (h0 : Pipeline.arrRef spec0 w ∉ hostOps0_W) :
    M3 m ρ c (Proc.devRef .tc (Pipeline.arrRef spec0 w)) = m ((c : Thread nD τ).loc (Pipeline.arrRef spec0 w)) :=
  (M3_keep m ρ c _ h1).trans <| (M2_arr m ρ c w).trans <| ((R0.dat (V1 m ρ) c).arrAt_in w hin _).trans <|
    (R0.A_eq (V1 m ρ) c w).trans <| (M1_keep m ρ c _ h0).trans rfl

/-- The encoded molecules are what the molecule encoder's write-back leaves. -/
theorem V3_main_v1 (c : Dev nD) : V3 m ρ c main_v1 = (R0.dat (V1 m ρ) c).arrAt 3 cfg0.N :=
  (M3_keep m ρ c main_v1 (by decide)).trans (M2_arr m ρ c 3)
theorem V3_main_arg0 (c : Dev nD) : V3 m ρ c main_arg0 = m ((c : Thread nD τ).loc main_arg0) :=
  M3_input m ρ c 0 rfl (by decide) (by decide)
theorem V3_main_arg1 (c : Dev nD) : V3 m ρ c main_arg1 = m ((c : Thread nD τ).loc main_arg1) :=
  M3_bypass m ρ c main_arg1 (by decide) (by decide) (by decide)
theorem V3_main_arg2 (c : Dev nD) : V3 m ρ c main_arg2 = m ((c : Thread nD τ).loc main_arg2) :=
  M3_input m ρ c 1 rfl (by decide) (by decide)
theorem V3_main_arg3 (c : Dev nD) : V3 m ρ c main_arg3 = m ((c : Thread nD τ).loc main_arg3) :=
  M3_bypass m ρ c main_arg3 (by decide) (by decide) (by decide)
theorem V3_main_arg4 (c : Dev nD) : V3 m ρ c main_arg4 = m ((c : Thread nD τ).loc main_arg4) :=
  M3_bypass m ρ c main_arg4 (by decide) (by decide) (by decide)
theorem V3_main_arg5 (c : Dev nD) : V3 m ρ c main_arg5 = m ((c : Thread nD τ).loc main_arg5) :=
  M3_bypass m ρ c main_arg5 (by decide) (by decide) (by decide)
/-- The template bias's row holds the bias vector's 1024 entries in order: the second reshape reads its argument where
    the molecule encoder left it, which is where it was launched. -/
theorem V3_main_v2 (c : Dev nD) :
    V3 m ρ c main_v2 = shapeCast S1x1024 (m ((c : Thread nD τ).loc main_arg5)) shapeCasts_S1024_S1x1024 := by
  show StableHlo.after hostOps1 (M2 m ρ c) (Proc.devRef .tc main_v2) = _
  after_results
  rw [show M2 m ρ c (Proc.devRef .tc main_arg5) = m ((c : Thread nD τ).loc main_arg5) from
    (M2_off m ρ c main_arg5 (by decide)).trans ((M1_keep m ρ c main_arg5 (by decide)).trans rfl)]
  rfl

/-! ## The last contents, read back -/

/-- The result array holds what the association region's write-backs leave. -/
theorem M4_main_v3 (c : Dev nD) : M4 m ρ c (Proc.devRef .tc main_v3) = (R1.dat (V3 m ρ) c).arrAt 4 cfg1.N :=
  M4_arr m ρ c 4
/-- A buffer that is no array of the association region ends as it entered the region. -/
theorem M4_bypass (c : Dev nD) (r : Ref sig .tc) (hw : ∀ w, Pipeline.arrRef spec1 w ≠ r) :
    M4 m ρ c (Proc.devRef .tc r) = V3 m ρ c r :=
  M4_off m ρ c r hw
/-- An input window's array of the association region ends as it entered the region: the region never writes it. -/
theorem M4_input (c : Dev nD) (w : Fin cfg1.W) (hin : (cfg1.win w).isOut = false) :
    M4 m ρ c (Proc.devRef .tc (Pipeline.arrRef spec1 w)) = V3 m ρ c (Pipeline.arrRef spec1 w) :=
  (M4_arr m ρ c w).trans <| ((R1.dat (V3 m ρ) c).arrAt_in w hin _).trans (R1.A_eq (V3 m ρ) c w)

theorem M4_main_arg0 (c : Dev nD) : M4 m ρ c (Proc.devRef .tc main_arg0) = m ((c : Thread nD τ).loc main_arg0) :=
  (M4_bypass m ρ c main_arg0 (by decide)).trans (V3_main_arg0 m ρ c)
theorem M4_main_arg1 (c : Dev nD) : M4 m ρ c (Proc.devRef .tc main_arg1) = m ((c : Thread nD τ).loc main_arg1) :=
  (M4_input m ρ c 1 rfl).trans (V3_main_arg1 m ρ c)
theorem M4_main_arg2 (c : Dev nD) : M4 m ρ c (Proc.devRef .tc main_arg2) = m ((c : Thread nD τ).loc main_arg2) :=
  (M4_bypass m ρ c main_arg2 (by decide)).trans (V3_main_arg2 m ρ c)
theorem M4_main_arg3 (c : Dev nD) : M4 m ρ c (Proc.devRef .tc main_arg3) = m ((c : Thread nD τ).loc main_arg3) :=
  (M4_bypass m ρ c main_arg3 (by decide)).trans (V3_main_arg3 m ρ c)
theorem M4_main_arg4 (c : Dev nD) : M4 m ρ c (Proc.devRef .tc main_arg4) = m ((c : Thread nD τ).loc main_arg4) :=
  (M4_input m ρ c 2 rfl).trans (V3_main_arg4 m ρ c)
theorem M4_main_arg5 (c : Dev nD) : M4 m ρ c (Proc.devRef .tc main_arg5) = m ((c : Thread nD τ).loc main_arg5) :=
  (M4_bypass m ρ c main_arg5 (by decide)).trans (V3_main_arg5 m ρ c)

/-! ## The proof data family and the thread state -/

/-- Neither pipeline has a prefetched table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V3 m ρ) c
abbrev 𝒱₀ : Variants := Variants.none
/-- No core owes another anything, so no level is assigned. -/
abbrev L : GSem nD τ sig → Finset Unit := fun _ => ∅
abbrev lv : GSem nD τ sig → Unit → ℕ := fun _ _ => 0
/-- What rides beside the buffers through every item: the generator register at some state, the core owing nothing. -/
abbrev R (c : Dev nD) : sProp 𝕄 := iprop((∃ r, prngReg c r) ∗ ∃ W, owes (c : Thread nD τ) (0 : CellTallies nD τ sig Unit) W)
/-- A host stretch over the unscoped buffers from contents Wv, R riding along; it leaves them at the stretch's results. -/
abbrev hseg (ops : List (HloOp τ sig (Elt F))) (hsub : ops.Forall fun op => op.bufs ⊆ StableHlo.tcRefs τ sig)
    (hfresh : ops.Forall fun op => op.fresh = ∅) (Wv : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wv R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, beside the core owing nothing: every unscoped buffer at the last contents, the generator
    register at some state. -/
abbrev Tₙ (c : Dev nD) : sProp 𝕄 := iprop(StableHlo.held (c : Thread nD τ) (Pipeline.ucRefs τ sig) (M4 m ρ c) ∗ ∃ r, prngReg c r)

/-! ## The regions as segments -/

set_option backward.isDefEq.respectTransparency.types false in
/-- The molecule encoder's region: entered from every unscoped buffer at the contents after the first reshape, left with
    them at the contents after its write-back. Its arrays are split out of the unscoped buffers at entry and put back at
    the exit contents; the generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (M1 m ρ c) ∗ R c)
  post c := iprop(StableHlo.held (c : Thread nD τ) (Pipeline.ucRefs τ sig) (M2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The association body's written-back columns do not depend on what fills the template buffer past the array's end:
    the hypothesis of the association region's exact body obligation, at the region's entry contents. -/
abbrev Cut : Prop :=
  ∀ (c : Dev nD) (t : Fin cfg1.N) (d : S1024x2048.Idx → Elt F .f32),
    win1_4.cut (grid1.coords t) (Body.out1 (R1.iblk (V3 m ρ) c 0 t) (R1.tfill (V3 m ρ) c t d) (R1.iblk (V3 m ρ) c 2 t) (R1.iblk (V3 m ρ) c 3 t))
      = win1_4.cut (grid1.coords t) (Body.out1 (R1.iblk (V3 m ρ) c 0 t) (R1.tfill (V3 m ρ) c t R1.zfill) (R1.iblk (V3 m ρ) c 2 t) (R1.iblk (V3 m ρ) c 3 t))

set_option backward.isDefEq.respectTransparency.types false in
/-- The association region: entered from every unscoped buffer at the contents after the second reshape, left with them
    at the last contents. Its arrays are split out at entry and put back at the exit contents; the generator register
    goes into the region's invariant and comes back; nothing is owed. -/
def reg1 (hcut : Cut m ρ) : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := R1.body_obligation_of_cut (V3 m ρ) hcut c
  hwaits := Pipeline.hwaits_of_owed_zero _ _ _ _ L lv 1 fun _ _ => rfl
  pre c := iprop(StableHlo.held (c : Thread nD τ) (Pipeline.ucRefs τ sig) (M3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exitArr1 m ρ c) (exitRest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four items in order: each reshape a host segment from its boundary's contents, each kernel call a region. -/
abbrev segs (hcut : Cut m ρ) : List (Pipeline.Seg (pcfgs (F := F)) adm (pdats m ρ) () defs₀ 𝒱₀ L lv) :=
  [ .host (hseg hostOps0 hostOps0_sub hostOps0_fresh (M0 m ρ)),
    .region (reg0 m ρ),
    .host (hseg hostOps1 hostOps1_sub hostOps1_fresh (M2 m ρ)),
    .region (reg1 m ρ hcut) ]
/-- @main is the run of those segments. -/
theorem main_run (hcut : Cut m ρ) (c : Dev nD) : main (F := F) c = Pipeline.Seg.run (segs m ρ hcut) :=
  (main_chain c).trans (by chain_rfl)

set_option backward.isDefEq.respectTransparency.types false in
/-- THE RUN, at any float instance. Given that the association body's written-back columns do not depend on what fills
    the template buffer past the array's end: every weakly fair execution of @main from memory m with zero counters
    terminates, nothing faulting, and every final memory holds in the result array what the association region's
    write-backs leave, and each of the six argument arrays as launched. -/
theorem run (hcut : ∀ (c : Dev nD) (t : Fin cfg1.N) (d : S1024x2048.Idx → Elt F .f32),
      win1_4.cut (grid1.coords t) (Body.out1 (R1.iblk (V3 m ρ) c 0 t) (R1.tfill (V3 m ρ) c t d) (R1.iblk (V3 m ρ) c 2 t) (R1.iblk (V3 m ρ) c 3 t))
        = win1_4.cut (grid1.coords t) (Body.out1 (R1.iblk (V3 m ρ) c 0 t) (R1.tfill (V3 m ρ) c t R1.zfill) (R1.iblk (V3 m ρ) c 2 t) (R1.iblk (V3 m ρ) c 3 t))) :
    θ_run defs (onTc (τ := τ) (main (F := F))) ⟨m, fun _ => 0, ρ⟩ (fun r => ∀ c : Dev nD,
      r.2.mem ((c.tc : Thread nD τ).loc main_v3) = (R1.dat (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ hcut)
    (fun c Q => by rw [main_run m ρ hcut c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (M0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (M0 m ρ c)
        from Pipeline.unscopedBufs_held c (M0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = M4 m ρ c b)
    (hfin := fun c s' => by
      iintro ⟨⟨Hh, -⟩, HSI⟩
      unfold StableHlo.held
      imodintro
      iapply (pointsTo_read_all (Pipeline.ucRefs τ sig) (fun b => (((c : Thread nD τ)).1, b)) (M4 m ρ c) s')
      isplitl [Hh] <;> iassumption)
    (hQ := fun s h c =>
      ⟨(h c _ (mem_uc main_v3 (by decide))).trans (M4_main_v3 m ρ c),
        (h c _ (mem_uc main_arg0 (by decide))).trans (M4_main_arg0 m ρ c),
        (h c _ (mem_uc main_arg1 (by decide))).trans (M4_main_arg1 m ρ c),
        (h c _ (mem_uc main_arg2 (by decide))).trans (M4_main_arg2 m ρ c),
        (h c _ (mem_uc main_arg3 (by decide))).trans (M4_main_arg3 m ρ c),
        (h c _ (mem_uc main_arg4 (by decide))).trans (M4_main_arg4 m ρ c),
        (h c _ (mem_uc main_arg5 (by decide))).trans (M4_main_arg5 m ρ c)⟩)

/-- info: 'Cert.KernelIdeal.Run.run' depends on axioms: [propext, Classical.choice, Quot.sound] -/
#guard_msgs in #print axioms run

end Cert.KernelIdeal.Run

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.Pay.lean ====
/-
  The two kernel bodies' results read at one entry, at the ideal values.

  The first body's block is a dense layer of its operands: entry (p, a) is ∑ k, x (p, k) · w (a, k), plus the bias row's
  entry a (the product with the transposed weights read entry by entry; a change of float format is the identity).
  The second body's block at entry (p, q) is β · ∑ a, ξ (p, a) · ((∑ k, t (q, k) · w (a, k)) + b a): it depends on the
  template block `t` only through its row `q`.
-/
import proofs.«176094_j70643622085021_1_alg».proof.Proof.Gen.KernelIdeal.Skeleton
import proofs.«176094_j70643622085021_1_alg».proof.Proof.LibPlainMatmul
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Pay

open Cert.KernelIdeal Cert.KernelIdeal.Gen

/-- The transposed weights at (k, a) are the weights at (a, k). -/
theorem transpose_w (x : FVec Ideal S1024x2048 .bf16) (k : Fin 2048) (a : Fin 1024) :
    transpose S2048x1024 [1, 0] x transposes_S1024x2048_p1_0_S2048x1024 (ix2 k a) = x (ix2 a k) :=
  transpose_apply [1, 0] x transposes_S1024x2048_p1_0_S2048x1024 (ix2 k a) (ix2 a k)
    (fun b => match b with | ⟨0, _⟩ => rfl | ⟨1, _⟩ => rfl)

/-- The transposed encoded block at (a, q) is the block at (q, a). -/
theorem transpose_x (x : FVec Ideal S1024x1024 .bf16) (a : Fin 1024) (q : Fin 1024) :
    transpose S1024x1024 [1, 0] x transposes_S1024x1024_p1_0_S1024x1024 (ix2 a q) = x (ix2 q a) :=
  transpose_apply [1, 0] x transposes_S1024x1024_p1_0_S1024x1024 (ix2 a q) (ix2 q a)
    (fun b => match b with | ⟨0, _⟩ => rfl | ⟨1, _⟩ => rfl)

/-- The first body's block at entry (p, a). -/
theorem pay0_apply (x0 : Vec Ideal S512x2048 .f32) (x1 : Vec Ideal S1024x2048 .f32) (x2 : Vec Ideal S1x1024 .f32)
    (p : Fin 512) (a : Fin 1024) :
    k0_pay1 (F := Ideal) x0 x1 x2 (ix2 p a)
      = (∑ k : Fin 2048, x0 (ix2 p k) * x1 (ix2 a k)) + x2 (ix2 (0 : Fin 1) a) := by
  unfold k0_pay1
  show FloatOps.matmul dot_S512x2048_S2048x1024_S512x1024_1_0_0_1_n_n none _ _ (constant (F := Ideal) S512x1024 .f32 0x00000000#32) (ix2 p a)
      + broadcastTo S512x1024 (shapeCast S1x1024 x2 shapeCasts_S1x1024_S1x1024) broadcasts_S1x1024_S512x1024 (ix2 p a) = _
  rw [Cert.Lib.PlainMatmul.apply dot_S512x2048_S2048x1024_S512x1024_1_0_0_1_n_n rfl rfl rfl rfl rfl rfl,
    Cert.Lib.PlainMatmul.rowSpread_apply, shapeCast_self]
  refine congrArg (· + _) (Finset.sum_congr rfl fun k _ => ?_)
  rw [transpose_w]
  rfl

/-- The second body's block at entry (p, q). -/
theorem pay1_apply (xi : Vec Ideal S512x1024 .bf16) (t : Vec Ideal S1024x2048 .f32) (w : Vec Ideal S1024x2048 .f32)
    (b : Vec Ideal S1x1024 .f32) (p : Fin 512) (q : Fin 1024) :
    k1_pay1 (F := Ideal) xi t w b (ix2 p q)
      = Ideal.ofBits .f32 0x3E000000#32
        * ∑ a : Fin 1024, xi (ix2 p a) * ((∑ k : Fin 2048, t (ix2 q k) * w (ix2 a k)) + b (ix2 (0 : Fin 1) a)) := by
  unfold k1_pay1
  show Ideal.ofBits .f32 0x3E000000#32
      * FloatOps.matmul dot_S512x1024_S1024x1024_S512x1024_1_0_0_1_n_n none _ _ (constant (F := Ideal) S512x1024 .f32 0x00000000#32) (ix2 p q) = _
  rw [Cert.Lib.PlainMatmul.apply dot_S512x1024_S1024x1024_S512x1024_1_0_0_1_n_n rfl rfl rfl rfl rfl rfl, shapeCast_self]
  refine congrArg (_ * ·) (Finset.sum_congr rfl fun a _ => ?_)
  rw [transpose_x]
  show xi (ix2 p a) * (FloatOps.matmul dot_S1024x2048_S2048x1024_S1024x1024_1_0_0_1_n_n none _ _ (constant (F := Ideal) S1024x1024 .f32 0x00000000#32) (ix2 q a)
      + broadcastTo S1024x1024 (shapeCast S1x1024 b shapeCasts_S1x1024_S1x1024) broadcasts_S1x1024_S1024x1024 (ix2 q a)) = _
  rw [Cert.Lib.PlainMatmul.apply dot_S1024x2048_S2048x1024_S1024x1024_1_0_0_1_n_n rfl rfl rfl rfl rfl rfl,
    Cert.Lib.PlainMatmul.rowSpread_apply, shapeCast_self]
  refine congrArg (fun z => xi (ix2 p a) * (z + _)) (Finset.sum_congr rfl fun k _ => ?_)
  rw [transpose_w]
  rfl

end Cert.KernelIdeal.Pay

end
-- ==== Proof.KernelIdeal.Final.lean ====
/-
  From blocks to arrays: what the two output arrays hold after their regions, at the ideal values, at any contents `V`
  the core's buffers hold when a region is entered.

  The encoder's grid has one point and every block is its whole array, so the encoded molecules end at the encoder's block
  of the molecules, the weights and the bias row, whole.

  The association's grid has 49 points. Point t writes back the leading columns of its result block onto columns
  1024·t … of the output: all 1024 of them, or the 848 left at the last point (49 · 1024 = 50176 > 50000). Entry (p, q)
  of the result block is β · ∑ a, ξ (p, a) · ((∑ k, T_t (q, k) · w (a, k)) + b a), where row q of the template block T_t, for
  q among the rows the fetch moves, is row 1024·t + q of the templates. So what point t writes back is block t of ONE
  function of the arrays, the association of ξ with the dense layer of all 50000 templates; column j lies in the block of
  point ⌊j / 1024⌋; and the output array ends holding that function.
-/
import proofs.«176094_j70643622085021_1_alg».proof.Proof.KernelIdeal.Region0
import proofs.«176094_j70643622085021_1_alg».proof.Proof.KernelIdeal.Region1
import proofs.«176094_j70643622085021_1_alg».proof.Proof.Pay
import Idealize.ShloMosaic.Lib.Pipeline.Value
import Idealize.ShloMosaic.Lib.ValueIdx

set_option maxRecDepth 16384

noncomputable section

open scoped BigOperators

namespace Cert.KernelIdeal.Final

open Cert.KernelIdeal Cert.KernelIdeal.Gen Cert.KernelIdeal.Body
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- Entry (p, q) of the association of encoded molecules ξ with the dense layer of all templates. -/
def assoc (xi : Vec Ideal S512x1024 .bf16) (t : Vec Ideal S50000x2048 .f32) (w : Vec Ideal S1024x2048 .f32)
    (b : Vec Ideal S1x1024 .f32) : Vec Ideal S512x50000 .f32 :=
  fun j => Ideal.ofBits .f32 0x3E000000#32
    * ∑ a : Fin 1024, xi (ix2 (⟨(j 0).val, idx2_lt0 j⟩ : Fin 512) a)
        * ((∑ k : Fin 2048, t (ix2 (⟨(j 1).val, idx2_lt1 j⟩ : Fin 50000) k) * w (ix2 a k)) + b (ix2 (0 : Fin 1) a))

theorem assoc_apply (xi : Vec Ideal S512x1024 .bf16) (t : Vec Ideal S50000x2048 .f32) (w : Vec Ideal S1024x2048 .f32)
    (b : Vec Ideal S1x1024 .f32) (p : Fin 512) (q : Fin 50000) :
    assoc xi t w b (ix2 p q) = Ideal.ofBits .f32 0x3E000000#32
      * ∑ a : Fin 1024, xi (ix2 p a) * ((∑ k : Fin 2048, t (ix2 q k) * w (ix2 a k)) + b (ix2 (0 : Fin 1) a)) := rfl

/-! ## The molecule encoder: one grid point, every block its whole array -/

/-- At the encoder's one grid point every window's block index is zero on both axes. -/
theorem idx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The molecules' block is the whole array of molecules. -/
theorem iblk0_0 (c : Dev nD) (t : Fin cfg0.N) :
    (R0.iblk V c 0 t : Vec Ideal S512x2048 .f32) = (V c main_arg0 : Vec Ideal S512x2048 .f32) := by
  obtain ⟨e0, e1, -⟩ := idx0 t
  funext y
  show V c main_arg0 (((cfg0.win 0).blk t).view.emb y) = V c main_arg0 y
  refine congrArg _ (funext fun a => Fin.ext ?_)
  match a with
  | ⟨0, _⟩ => show win0_0.index t (0 : Fin 2) * 512 + 1 * (y 0).val = (y 0).val; rw [e0]; omega
  | ⟨1, _⟩ => show win0_0.index t (1 : Fin 2) * 2048 + 1 * (y 1).val = (y 1).val; rw [e1]; omega

/-- The encoder weights' block is the whole array of weights. -/
theorem iblk0_1 (c : Dev nD) (t : Fin cfg0.N) :
    (R0.iblk V c 1 t : Vec Ideal S1024x2048 .f32) = (V c main_arg2 : Vec Ideal S1024x2048 .f32) := by
  obtain ⟨-, -, e0, e1, -⟩ := idx0 t
  funext y
  show V c main_arg2 (((cfg0.win 1).blk t).view.emb y) = V c main_arg2 y
  refine congrArg _ (funext fun a => Fin.ext ?_)
  match a with
  | ⟨0, _⟩ => show win0_1.index t (0 : Fin 2) * 1024 + 1 * (y 0).val = (y 0).val; rw [e0]; omega
  | ⟨1, _⟩ => show win0_1.index t (1 : Fin 2) * 2048 + 1 * (y 1).val = (y 1).val; rw [e1]; omega

/-- The encoder bias row's block is the whole row. -/
theorem iblk0_2 (c : Dev nD) (t : Fin cfg0.N) :
    (R0.iblk V c 2 t : Vec Ideal S1x1024 .f32) = (V c main_v0 : Vec Ideal S1x1024 .f32) := by
  obtain ⟨-, -, -, -, e0, e1, -⟩ := idx0 t
  funext y
  show V c main_v0 (((cfg0.win 2).blk t).view.emb y) = V c main_v0 y
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

/-- What the one point writes back is the encoder's block of the three whole arrays, read through the whole output array. -/
theorem flushed0_eq (c : Dev nD) (t : Fin cfg0.N) :
    (R0.dat (F := Ideal) V c).flushed 3 t
      = ((cfg0.win 3).blk t).view.read (Elt Ideal) (k0_pay1 (F := Ideal) (V c main_arg0) (V c main_arg2) (V c main_v0)) := by
  show (cfg0.win 3).cut (grid0.coords t) ((R0.dat (F := Ideal) V c).after 3 t) = _
  rw [R0.after_3, out0_eq, iblk0_0, iblk0_1, iblk0_2]
  obtain ⟨-, -, -, -, -, -, e0, e1⟩ := idx0 t
  funext y
  show k0_pay1 (F := Ideal) (V c main_arg0) (V c main_arg2) (V c main_v0) (win0_3.xinj (grid0.coords t) y)
    = k0_pay1 (F := Ideal) (V c main_arg0) (V c main_arg2) (V c main_v0) (((cfg0.win 3).blk t).view.emb y)
  refine congrArg _ (funext fun a => Fin.ext ?_)
  match a with
  | ⟨0, _⟩ => show (y 0).val = win0_3.index t (0 : Fin 2) * 512 + 1 * (y 0).val; rw [e0]; omega
  | ⟨1, _⟩ => show (y 1).val = win0_3.index t (1 : Fin 2) * 1024 + 1 * (y 1).val; rw [e1]; omega

/-- An index of the encoded array is in the point's block iff each coordinate is in the block's range on its axis. -/
theorem mem_blk0 (t : Fin cfg0.N) (i : S512x1024.Idx) :
    i ∈ ((cfg0.win 3).blk t).view.set
      ↔ ∀ a : Fin 2, win0_3.index t a * S512x1024.size a ≤ (i a).val ∧ (i a).val < win0_3.index t a * S512x1024.size a + S512x1024.size a := by
  show i ∈ ((View.whole main_v1).slice (win0_3.rect t)).set ↔ _
  rw [View.set_slice_whole, Rect.mem_set_unit]
  exact Iff.rfl

/-- THE ENCODED MOLECULES after the first region: the encoder's block of the molecules, the weights and the bias row. -/
theorem final0 (c : Dev nD) :
    (R0.dat (F := Ideal) V c).arrAt 3 cfg0.N = k0_pay1 (F := Ideal) (V c main_arg0) (V c main_arg2) (V c main_v0) :=
  (R0.dat (F := Ideal) V c).arrAt_eq_of_cover 3 _ (fun t _ => flushed0_eq V c t) fun i => by
    refine ⟨t0_0, flush0_3 t0_0, ?_⟩
    rw [mem_blk0]
    obtain ⟨-, -, -, -, -, -, e0, e1⟩ := idx0 t0_0
    have h0 : (i 0).val < 512 := (i 0).isLt
    have h1 : (i 1).val < 1024 := (i 1).isLt
    intro a
    match a with
    | ⟨0, _⟩ => show win0_3.index t0_0 (0 : Fin 2) * 512 ≤ (i 0).val ∧ (i 0).val < win0_3.index t0_0 (0 : Fin 2) * 512 + 512; rw [e0]; omega
    | ⟨1, _⟩ => show win0_3.index t0_0 (1 : Fin 2) * 1024 ≤ (i 1).val ∧ (i 1).val < win0_3.index t0_0 (1 : Fin 2) * 1024 + 1024; rw [e1]; omega

/-! ## The association: 49 grid points, the template rows and the output columns in blocks of 1024 -/

/-- The block indices and the moved sizes at every grid point: the three whole-array windows stay at block (0, 0); the template
    window is at block row `t`, the output window at block column `t`; the template block's moved rows and the output
    block's moved columns are the 1024 of a full block or the rows of templates left from the block's start. -/
theorem idx1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = t.val
    ∧ win1_1.xsize (grid1.coords t) (0 : Fin 2) = min 1024 (50000 - 1024 * t.val)
    ∧ win1_1.xsize (grid1.coords t) (1 : Fin 2) = 2048
    ∧ win1_4.xsize (grid1.coords t) (0 : Fin 2) = 512
    ∧ win1_4.xsize (grid1.coords t) (1 : Fin 2) = min 1024 (50000 - 1024 * t.val) :=
  (by decide +kernel : ∀ t : Fin grid1.N, _)

/-- The encoded molecules' block is the whole array of encoded molecules. -/
theorem iblk1_0 (c : Dev nD) (t : Fin cfg1.N) :
    (R1.iblk V c 0 t : Vec Ideal S512x1024 .bf16) = (V c main_v1 : Vec Ideal S512x1024 .bf16) := by
  obtain ⟨e0, e1, -⟩ := idx1 t
  funext y
  show V c main_v1 (((cfg1.win 0).blk t).view.emb y) = V c main_v1 y
  refine congrArg _ (funext fun a => Fin.ext ?_)
  match a with
  | ⟨0, _⟩ => show win1_0.index t (0 : Fin 2) * 512 + 1 * (y 0).val = (y 0).val; rw [e0]; omega
  | ⟨1, _⟩ => show win1_0.index t (1 : Fin 2) * 1024 + 1 * (y 1).val = (y 1).val; rw [e1]; omega

/-- The template weights' block is the whole array of weights. -/
theorem iblk1_2 (c : Dev nD) (t : Fin cfg1.N) :
    (R1.iblk V c 2 t : Vec Ideal S1024x2048 .f32) = (V c main_arg4 : Vec Ideal S1024x2048 .f32) := by
  obtain ⟨-, -, -, -, e0, e1, -⟩ := idx1 t
  funext y
  show V c main_arg4 (((cfg1.win 2).blk t).view.emb y) = V c main_arg4 y
  refine congrArg _ (funext fun a => Fin.ext ?_)
  match a with
  | ⟨0, _⟩ => show win1_2.index t (0 : Fin 2) * 1024 + 1 * (y 0).val = (y 0).val; rw [e0]; omega
  | ⟨1, _⟩ => show win1_2.index t (1 : Fin 2) * 2048 + 1 * (y 1).val = (y 1).val; rw [e1]; omega

/-- The template bias row's block is the whole row. -/
theorem iblk1_3 (c : Dev nD) (t : Fin cfg1.N) :
    (R1.iblk V c 3 t : Vec Ideal S1x1024 .f32) = (V c main_v2 : Vec Ideal S1x1024 .f32) := by
  obtain ⟨-, -, -, -, -, -, e0, e1, -⟩ := idx1 t
  funext y
  show V c main_v2 (((cfg1.win 3).blk t).view.emb y) = V c main_v2 y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 1024 + 1 * (y 1).val = (y 1).val; rw [e1]; omega

/-- Row `q` of the filled template block, for `q` among the rows the fetch moves, is row `1024 · t + q` of the templates,
    whatever fills out the rest. -/
theorem tfill_apply (c : Dev nD) (t : Fin cfg1.N) (d : S1024x2048.Idx → Elt Ideal .f32) (q : Fin 1024)
    (hq : q.val < min 1024 (50000 - 1024 * t.val)) (k : Fin 2048) (r : Fin 50000) (hr : r.val = t.val * 1024 + q.val) :
    R1.tfill V c t d (ix2 q k) = (V c main_arg1 : Vec Ideal S50000x2048 .f32) (ix2 r k) := by
  obtain ⟨-, -, e0, e1, -, -, -, -, -, -, x0, x1, -⟩ := idx1 t
  have hm : win1_1.moved (grid1.coords t) (ix2 q k) = true :=
    (win1_1.moved_iff (grid1.coords t) (ix2 q k)).mpr fun a => by
      match a with
      | ⟨0, _⟩ => exact Nat.lt_of_lt_of_eq hq x0.symm
      | ⟨1, _⟩ => exact Nat.lt_of_lt_of_eq k.isLt x1.symm
  unfold R1.tfill Pipeline.Window.fill
  rw [dif_pos hm]
  show V c main_arg1 (((cfg1.win 1).blk t).view.emb _) = V c main_arg1 (ix2 r k)
  refine congrArg _ (funext fun a => Fin.ext ?_)
  match a with
  | ⟨0, _⟩ => show win1_1.index t (0 : Fin 2) * 1024 + 1 * q.val = r.val; rw [e0, hr]; omega
  | ⟨1, _⟩ => show win1_1.index t (1 : Fin 2) * 2048 + 1 * k.val = k.val; rw [e1]; omega

/-- The body's block at entry (p, q) is the association at (p, r) when row `q` of the template block is row `r` of the templates. -/
theorem pay1_block (xi : Vec Ideal S512x1024 .bf16) (tb : Vec Ideal S1024x2048 .f32) (T : Vec Ideal S50000x2048 .f32)
    (w : Vec Ideal S1024x2048 .f32) (b : Vec Ideal S1x1024 .f32) (p : Fin 512) (q : Fin 1024) (r : Fin 50000)
    (h : ∀ k : Fin 2048, tb (ix2 q k) = T (ix2 r k)) :
    k1_pay1 (F := Ideal) xi tb w b (ix2 p q) = assoc xi T w b (ix2 p r) := by
  rw [Pay.pay1_apply, assoc_apply]
  refine congrArg (_ * ·) (Finset.sum_congr rfl fun a _ => ?_)
  refine congrArg (fun z => _ * (z + _)) (Finset.sum_congr rfl fun k _ => ?_)
  rw [h k]

/-- WHAT POINT `t` WRITES BACK is block `t` of the association: the moved columns `q` of the body's block read the template
    block on its moved rows `q`, which are the templates' rows `1024 · t + q`. -/
theorem flushed1_eq (c : Dev nD) (t : Fin cfg1.N) :
    (R1.dat (F := Ideal) V c).flushed 4 t
      = ((cfg1.win 4).blk t).view.read (Elt Ideal) (assoc (V c main_v1) (V c main_arg1) (V c main_arg4) (V c main_v2)) := by
  show (cfg1.win 4).cut (grid1.coords t) ((R1.dat (F := Ideal) V c).after 4 t) = _
  rw [R1.after_4, out1_eq, iblk1_0, iblk1_2, iblk1_3]
  obtain ⟨-, -, -, -, -, -, -, -, e0, e1, -, -, x0, x1⟩ := idx1 t
  have hN : t.val < 49 := Nat.lt_of_lt_of_eq t.isLt N_1
  funext y
  have hp : (y 0).val < 512 := Nat.lt_of_lt_of_eq (y 0).isLt x0
  have hq' : (y 1).val < min 1024 (50000 - 1024 * t.val) := Nat.lt_of_lt_of_eq (y 1).isLt x1
  have hq : (y 1).val < 1024 := by omega
  have hr : t.val * 1024 + (y 1).val < 50000 := by omega
  have hj : win1_4.xinj (grid1.coords t) y = ix2 (⟨(y 0).val, hp⟩ : Fin 512) (⟨(y 1).val, hq⟩ : Fin 1024) :=
    funext fun a => Fin.ext (by match a with | ⟨0, _⟩ => rfl | ⟨1, _⟩ => rfl)
  have he : ((cfg1.win 4).blk t).view.emb y = ix2 (⟨(y 0).val, hp⟩ : Fin 512) (⟨t.val * 1024 + (y 1).val, hr⟩ : Fin 50000) :=
    funext fun a => Fin.ext (by
      match a with
      | ⟨0, _⟩ => show win1_4.index t (0 : Fin 2) * 512 + 1 * (y 0).val = (y 0).val; rw [e0]; omega
      | ⟨1, _⟩ => show win1_4.index t (1 : Fin 2) * 1024 + 1 * (y 1).val = t.val * 1024 + (y 1).val; rw [e1]; omega)
  show k1_pay1 (F := Ideal) (V c main_v1) (R1.tfill V c t R1.zfill) (V c main_arg4) (V c main_v2) (win1_4.xinj (grid1.coords t) y)
    = assoc (V c main_v1) (V c main_arg1) (V c main_arg4) (V c main_v2) (((cfg1.win 4).blk t).view.emb y)
  rw [hj, he]
  exact pay1_block _ _ _ _ _ _ _ _ fun k => tfill_apply V c t _ _ hq' k ⟨_, hr⟩ rfl

/-- An index of the association array is in point `t`'s block iff each coordinate is in the range of the block's part inside
    the array on its axis. -/
theorem mem_blk1 (t : Fin cfg1.N) (i : S512x50000.Idx) :
    i ∈ ((cfg1.win 4).blk t).view.set
      ↔ ∀ a : Fin 2, win1_4.index t a * S512x1024.size a ≤ (i a).val
          ∧ (i a).val < win1_4.index t a * S512x1024.size a + win1_4.xsize (grid1.coords t) a := by
  show i ∈ ((View.whole main_v3).slice (win1_4.rect t)).set ↔ _
  rw [View.set_slice_whole, Rect.mem_set_unit]
  exact Iff.rfl

/-- THE ASSOCIATION ARRAY after the second region: column `j` lies in the block of point `⌊j / 1024⌋`, so the blocks' parts
    inside the array cover it and it ends holding the association of the encoded molecules with all templates. -/
theorem final1 (c : Dev nD) :
    (R1.dat (F := Ideal) V c).arrAt 4 cfg1.N = assoc (V c main_v1) (V c main_arg1) (V c main_arg4) (V c main_v2) :=
  (R1.dat (F := Ideal) V c).arrAt_eq_of_cover 4 _ (fun t _ => flushed1_eq V c t) fun i => by
    have h0 : (i 0).val < 512 := (i 0).isLt
    have h1 : (i 1).val < 50000 := (i 1).isLt
    obtain ⟨t, ht⟩ : ∃ t : Fin cfg1.N, t.val = (i 1).val / 1024 :=
      ⟨⟨(i 1).val / 1024, Nat.lt_of_lt_of_eq (by omega) N_1.symm⟩, rfl⟩
    refine ⟨t, flush1_4 t, ?_⟩
    rw [mem_blk1]
    obtain ⟨-, -, -, -, -, -, -, -, e0, e1, -, -, x0, x1⟩ := idx1 t
    intro a
    match a with
    | ⟨0, _⟩ =>
      show win1_4.index t (0 : Fin 2) * 512 ≤ (i 0).val ∧ (i 0).val < win1_4.index t (0 : Fin 2) * 512 + win1_4.xsize (grid1.coords t) (0 : Fin 2)
      rw [e0, x0]; omega
    | ⟨1, _⟩ =>
      show win1_4.index t (1 : Fin 2) * 1024 ≤ (i 1).val ∧ (i 1).val < win1_4.index t (1 : Fin 2) * 1024 + win1_4.xsize (grid1.coords t) (1 : Fin 2)
      rw [e1, x1]; omega

end Cert.KernelIdeal.Final

end
-- ==== Proof.KernelIdeal.Tail.lean ====
/-
  The association body's written-back columns do not depend on the unfetched template rows.

  At a grid point the template block (1024 rows of 2048) and the result block (512 rows of 1024 columns) may overhang their
  arrays: the fetch fills only the template block's leading rows, the write-back moves only the result block's leading
  columns, and at every point the two counts are the same number (the rows of templates left from the block's start, at
  most 1024), while every one of the 2048 columns of a template row is fetched. The result block's entry (p, q) is
  β · ∑ a, ξ (p, a) · ((∑ k, t (q, k) · w (a, k)) + b a): it reads the template block on its row q only. So a written-back
  column q reads a fetched row q, where the block holds what was fetched whatever it held before.
-/
import proofs.«176094_j70643622085021_1_alg».proof.Proof.KernelIdeal.Body
import proofs.«176094_j70643622085021_1_alg».proof.Proof.Pay

noncomputable section

open scoped BigOperators
open Idealize.ShloMosaic Idealize.ShloMosaic.ValueIdx Idealize.ShloMosaic.TcCoe

namespace Cert.KernelIdeal.Tail

open Cert.KernelIdeal Cert.KernelIdeal.Gen Cert.KernelIdeal.Body Cert.KernelIdeal.Pay

/-- At every grid point the result block's moved columns are as many as the template block's moved rows, and all 2048
    columns of a template row are moved. -/
theorem xsize_facts : ∀ t : Fin cfg1.N,
    win1_4.xsize (grid1.coords t) (1 : Fin 2) = win1_1.xsize (grid1.coords t) (0 : Fin 2)
      ∧ win1_1.xsize (grid1.coords t) (1 : Fin 2) = 2048 :=
  (by decide +kernel : ∀ t : Fin grid1.N,
    win1_4.xsize (grid1.coords t) (1 : Fin 2) = win1_1.xsize (grid1.coords t) (0 : Fin 2)
      ∧ win1_1.xsize (grid1.coords t) (1 : Fin 2) = 2048)

/-- On a fetched row q the filled template block is what was fetched, at every column k, whatever the block held. -/
theorem fill_row (t : Fin cfg1.N) (g : (win1_1.xblock (grid1.coords t)).Idx → Elt Ideal .f32)
    (d d' : S1024x2048.Idx → Elt Ideal .f32) (q : Fin 1024) (hq : q.val < win1_1.xsize (grid1.coords t) (0 : Fin 2))
    (k : Fin 2048) :
    win1_1.fill (grid1.coords t) d g (ix2 q k) = win1_1.fill (grid1.coords t) d' g (ix2 q k) := by
  have hm : win1_1.moved (grid1.coords t) (ix2 q k) = true :=
    (win1_1.moved_iff (grid1.coords t) (ix2 q k)).mpr fun a => by
      match a with
      | ⟨0, _⟩ => exact hq
      | ⟨1, _⟩ => exact Nat.lt_of_lt_of_eq k.isLt (xsize_facts t).2.symm
  unfold Pipeline.Window.fill
  rw [dif_pos hm, dif_pos hm]

/-- The written-back part of the result block is the same whatever the template block held outside its fetched rows. -/
theorem cut_out1_indep (t : Fin cfg1.N) (x0 : Vec Ideal S512x1024 .bf16)
    (g : (win1_1.xblock (grid1.coords t)).Idx → Elt Ideal .f32) (d d' : S1024x2048.Idx → Elt Ideal .f32)
    (x2 : Vec Ideal S1024x2048 .f32) (x3 : Vec Ideal S1x1024 .f32) :
    win1_4.cut (grid1.coords t) (out1 (F := Ideal) x0 (win1_1.fill (grid1.coords t) d g) x2 x3)
      = win1_4.cut (grid1.coords t) (out1 (F := Ideal) x0 (win1_1.fill (grid1.coords t) d' g) x2 x3) := by
  funext j
  show out1 (F := Ideal) x0 (win1_1.fill (grid1.coords t) d g) x2 x3 (win1_4.xinj (grid1.coords t) j)
    = out1 (F := Ideal) x0 (win1_1.fill (grid1.coords t) d' g) x2 x3 (win1_4.xinj (grid1.coords t) j)
  rw [out1_eq, out1_eq]
  -- the entry's row p and column q; q is below the count of moved columns
  have hp : (j (0 : Fin 2)).val < 512 := Nat.lt_of_lt_of_le (j (0 : Fin 2)).isLt (win1_4.xsize_le (grid1.coords t) (0 : Fin 2))
  have hq : (j (1 : Fin 2)).val < 1024 := Nat.lt_of_lt_of_le (j (1 : Fin 2)).isLt (win1_4.xsize_le (grid1.coords t) (1 : Fin 2))
  have hj : win1_4.xinj (grid1.coords t) j = ix2 (⟨(j (0 : Fin 2)).val, hp⟩ : Fin 512) (⟨(j (1 : Fin 2)).val, hq⟩ : Fin 1024) :=
    funext fun a => Fin.ext (by match a with | ⟨0, _⟩ => rfl | ⟨1, _⟩ => rfl)
  have hrow : (⟨(j (1 : Fin 2)).val, hq⟩ : Fin 1024).val < win1_1.xsize (grid1.coords t) (0 : Fin 2) :=
    Nat.lt_of_lt_of_eq (j (1 : Fin 2)).isLt (xsize_facts t).1
  rw [hj, pay1_apply, pay1_apply]
  refine congrArg (_ * ·) (Finset.sum_congr rfl fun a _ => ?_)
  refine congrArg (fun z => _ * (z + _)) (Finset.sum_congr rfl fun k _ => ?_)
  rw [fill_row t g d d' _ hrow k]

end Cert.KernelIdeal.Tail

end
-- ==== Proof.Spec.lean ====
/-
  What both programs compute, as one function of the six argument arrays, entry by entry, over the extended reals.

  A dense layer sends row `p` of an input matrix `x` to the row whose entry `a` is the inner product of that row with
  row `a` of the weight matrix `w`, plus the bias entry `a`:  dense x w b (p, a) = (∑ k, x (p, k) · w (a, k)) + b a.
  The molecule encoder is the dense layer of `m` (512 rows), the template encoder the dense layer of `templates`
  (50000 rows); the result's entry (p, q) is β times the inner product, over the 1024 association coordinates, of the
  encoded molecule `p` with the encoded template `q`, β the float whose pattern is 0x3E000000 (one eighth).
-/
import Idealize.ShloMosaic.PureOps.Ideal
import Idealize.ShloMosaic.Lib.ValueIdx

noncomputable section

open scoped BigOperators
open Idealize.ShloMosaic Idealize.ShloMosaic.ValueIdx

namespace Cert.Spec

/-- Entry (p, a) of a dense layer: row `p` of `x` against row `a` of `w`, plus bias `a`. -/
def dense {R : Nat} (x : (⟨2, ![R, 2048]⟩ : Shape).Idx → EReal) (w : (⟨2, ![1024, 2048]⟩ : Shape).Idx → EReal)
    (b : (⟨1, ![1024]⟩ : Shape).Idx → EReal) (p : Fin R) (a : Fin 1024) : EReal :=
  (∑ k : Fin 2048, x (ix2 p k) * w (ix2 a k)) + b (ix1 a)

/-- The scale β, as the float literal both programs carry. -/
def beta : EReal := Ideal.ofBits .f32 0x3E000000#32

/-- Entry (p, q) of the result: β · ∑ a, (encoded molecule p) a · (encoded template q) a. -/
def entry (m : (⟨2, ![512, 2048]⟩ : Shape).Idx → EReal) (t : (⟨2, ![50000, 2048]⟩ : Shape).Idx → EReal)
    (wm : (⟨2, ![1024, 2048]⟩ : Shape).Idx → EReal) (bm : (⟨1, ![1024]⟩ : Shape).Idx → EReal)
    (wt : (⟨2, ![1024, 2048]⟩ : Shape).Idx → EReal) (bt : (⟨1, ![1024]⟩ : Shape).Idx → EReal)
    (p : Fin 512) (q : Fin 50000) : EReal :=
  beta * ∑ a : Fin 1024, dense m wm bm p a * dense t wt bt q a

/-- The whole result array. -/
def G (m : (⟨2, ![512, 2048]⟩ : Shape).Idx → EReal) (t : (⟨2, ![50000, 2048]⟩ : Shape).Idx → EReal)
    (wm : (⟨2, ![1024, 2048]⟩ : Shape).Idx → EReal) (bm : (⟨1, ![1024]⟩ : Shape).Idx → EReal)
    (wt : (⟨2, ![1024, 2048]⟩ : Shape).Idx → EReal) (bt : (⟨1, ![1024]⟩ : Shape).Idx → EReal) :
    (⟨2, ![512, 50000]⟩ : Shape).Idx → EReal :=
  fun j => entry m t wm bm wt bt (j 0) (j 1)

theorem G_apply (m : (⟨2, ![512, 2048]⟩ : Shape).Idx → EReal) (t : (⟨2, ![50000, 2048]⟩ : Shape).Idx → EReal)
    (wm : (⟨2, ![1024, 2048]⟩ : Shape).Idx → EReal) (bm : (⟨1, ![1024]⟩ : Shape).Idx → EReal)
    (wt : (⟨2, ![1024, 2048]⟩ : Shape).Idx → EReal) (bt : (⟨1, ![1024]⟩ : Shape).Idx → EReal)
    (p : Fin 512) (q : Fin 50000) :
    G m t wm bm wt bt (ix2 p q) = entry m t wm bm wt bt p q := rfl

end Cert.Spec

end
-- ==== Proof.KernelIdeal.Value.lean ====
/-
  The idealized kernel's result array is the specification `G` of the six argument arrays.

  After the run the result array holds, entry (p, q), β · ∑ a, ξ (p, a) · ((∑ k, t (q, k) · w (a, k)) + b a), where ξ is what
  the first region left in its output array — a dense layer of `m` against `W_mol` and the reshaped `b_mol` —, `t`, `w` are
  `templates` and `W_temp` as launched and `b` the reshaped `b_temp`. A [1024] vector reshaped to a [1, 1024] row has the
  vector's entry `a` at (0, a). So the two dense layers are the specification's, and the sum over the association
  coordinate is term for term the specification's. No law of the extended reals is used: the two sides group alike.
-/
import proofs.«176094_j70643622085021_1_alg».proof.Proof.KernelIdeal.Run
import proofs.«176094_j70643622085021_1_alg».proof.Proof.KernelIdeal.Final
import proofs.«176094_j70643622085021_1_alg».proof.Proof.KernelIdeal.Tail
import proofs.«176094_j70643622085021_1_alg».proof.Proof.Spec
import proofs.«176094_j70643622085021_1_alg».proof.Proof.Pay

noncomputable section

open scoped BigOperators

namespace Cert.KernelIdeal.ValueG

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ) (ρ : Dev nD → PrngReg)

/-- The columns of the association block that the write-back moves do not depend on what fills out the template buffer. -/
theorem hcut (c : Dev nD) (t : Fin cfg1.N) (d : S1024x2048.Idx → Elt Ideal .f32) :
    win1_4.cut (grid1.coords t) (out1 (R1.iblk (Run.V3 m ρ) c 0 t) (R1.tfill (Run.V3 m ρ) c t d) (R1.iblk (Run.V3 m ρ) c 2 t) (R1.iblk (Run.V3 m ρ) c 3 t))
      = win1_4.cut (grid1.coords t) (out1 (R1.iblk (Run.V3 m ρ) c 0 t) (R1.tfill (Run.V3 m ρ) c t R1.zfill) (R1.iblk (Run.V3 m ρ) c 2 t) (R1.iblk (Run.V3 m ρ) c 3 t)) :=
  Tail.cut_out1_indep t (R1.iblk (Run.V3 m ρ) c 0 t) (R1.iblk (Run.V3 m ρ) c 1 t) d R1.zfill (R1.iblk (Run.V3 m ρ) c 2 t) (R1.iblk (Run.V3 m ρ) c 3 t)

/-- A [1024] vector reshaped to a one-row matrix, at (0, a): the vector's entry a. -/
theorem reshape_row (x : S1024.Idx → EReal) (a : Fin 1024) :
    shapeCast S1x1024 x shapeCasts_S1024_S1x1024 (ix2 (0 : Fin 1) a) = x (ix1 a) :=
  shapeCast_apply x shapeCasts_S1024_S1x1024 (ix2 (0 : Fin 1) a) (ix1 a) (by
    rw [Shape.rowMajor_val_one, Shape.rowMajor_val_two]; show a.val = (0 : Fin 1).val * 1024 + a.val; simp)

/-- The result array after the run is the specification of the arguments. -/
theorem kernel_value (c : Dev nD) :
    (R1.dat (F := Ideal) (Run.V3 m ρ) c).arrAt 4 cfg1.N
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [Final.final1, Run.V3_main_v1, Final.final0, Run.V1_main_arg0, Run.V1_main_arg2, Run.V1_main_v0, Run.V3_main_arg1,
    Run.V3_main_arg4, Run.V3_main_v2]
  funext j
  obtain ⟨p, q, rfl⟩ : ∃ (p : Fin 512) (q : Fin 50000), j = ix2 p q := ⟨j 0, j 1, eq_ix2 j⟩
  rw [Final.assoc_apply, Cert.Spec.G_apply]
  unfold Cert.Spec.entry Cert.Spec.dense Cert.Spec.beta
  refine congrArg (_ * ·) (Finset.sum_congr rfl fun a _ => ?_)
  rw [Pay.pay0_apply, reshape_row, reshape_row]

end Cert.KernelIdeal.ValueG

end
-- ==== Proof.RefIsSpec.lean ====
/-
  The reference program is the stated function, entry by entry, over the extended reals.

  The reference encodes the molecules as m · W_molᵀ + b_mol and the templates as templates · W_tempᵀ + b_temp, contracts the
  two encodings over their 1024 association coordinates, and scales by β. Read at entry (p, q) of the result, every stage
  is a sum or a pointwise operation of entries of the six argument arrays: a transposed weight at (k, a) is the weight at
  (a, k); a broadcast bias at (p, a) is the bias at a; so an encoder's entry (p, a) is the dense layer's
  (∑ k, x (p, k) · w (a, k)) + b a, and the result's entry (p, q) is β · ∑ a, (encoded molecule p) a · (encoded template q) a.
-/
import proofs.«176094_j70643622085021_1_alg».proof.Proof.Gen.ReferenceIdeal.Read
import proofs.«176094_j70643622085021_1_alg».proof.Proof.Spec
import Idealize.ShloMosaic.Lib.ValueIdx
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Read

/-- The molecule encoder at entry (p, a): the inner product of row p of m with row a of W_mol (the transposed weight at
    (k, a) is the weight at (a, k)), plus the bias at a (the bias broadcast along the rows). -/
theorem mol_entry (x0 : (⟨S512x2048, .f32⟩ : BufTy).Contents (Elt Ideal)) (x2 : (⟨S1024x2048, .f32⟩ : BufTy).Contents (Elt Ideal))
    (x3 : (⟨S1024, .f32⟩ : BufTy).Contents (Elt Ideal)) (p : Fin 512) (a : Fin 1024) :
    val_main_v4 (F := Ideal) x0 x2 x3 (ix2 p a) = Cert.Spec.dense x0 x2 x3 p a := by
  unfold Cert.Spec.dense
  rw [val_main_v4_apply, val_main_v1_apply, val_main_v3_apply, val_main_v2_apply, Ideal.addf_def]
  have hb : idx_main_v2 (idx_main_v3 (ix2 p a)) = ix1 a :=
    funext fun d => Fin.ext (by match d with | ⟨0, _⟩ => rfl)
  rw [hb]
  congr 1
  refine Finset.sum_congr rfl fun k _ => ?_
  rw [val_main_v0_apply]
  have hl : lidx_main_v1 (ix2 p a) k = ix2 p k :=
    funext fun d => Fin.ext (by match d with | ⟨0, _⟩ => rfl | ⟨1, _⟩ => rfl)
  have hr : idx_main_v0 (ridx_main_v1 (ix2 p a) k) = ix2 a k :=
    funext fun d => Fin.ext (by match d with | ⟨0, _⟩ => rfl | ⟨1, _⟩ => rfl)
  rw [hl, hr]

/-- The template encoder at entry (q, a): the inner product of row q of templates with row a of W_temp, plus the bias
    at a. -/
theorem temp_entry (x1 : (⟨S50000x2048, .f32⟩ : BufTy).Contents (Elt Ideal)) (x4 : (⟨S1024x2048, .f32⟩ : BufTy).Contents (Elt Ideal))
    (x5 : (⟨S1024, .f32⟩ : BufTy).Contents (Elt Ideal)) (q : Fin 50000) (a : Fin 1024) :
    val_main_v9 (F := Ideal) x1 x4 x5 (ix2 q a) = Cert.Spec.dense x1 x4 x5 q a := by
  unfold Cert.Spec.dense
  rw [val_main_v9_apply, val_main_v6_apply, val_main_v8_apply, val_main_v7_apply, Ideal.addf_def]
  have hb : idx_main_v7 (idx_main_v8 (ix2 q a)) = ix1 a :=
    funext fun d => Fin.ext (by match d with | ⟨0, _⟩ => rfl)
  rw [hb]
  congr 1
  refine Finset.sum_congr rfl fun k _ => ?_
  rw [val_main_v5_apply]
  have hl : lidx_main_v6 (ix2 q a) k = ix2 q k :=
    funext fun d => Fin.ext (by match d with | ⟨0, _⟩ => rfl | ⟨1, _⟩ => rfl)
  have hr : idx_main_v5 (ridx_main_v6 (ix2 q a) k) = ix2 a k :=
    funext fun d => Fin.ext (by match d with | ⟨0, _⟩ => rfl | ⟨1, _⟩ => rfl)
  rw [hl, hr]

/-- The reference's result is the stated function: at entry (p, q) it is β times the sum over the association
    coordinate a of the encoded molecule p at a times the encoded template q at a. -/
theorem ref_eq (x0 : (⟨Cert.ReferenceIdeal.S512x2048, .f32⟩ : BufTy).Contents (Elt Ideal)) (x1 : (⟨Cert.ReferenceIdeal.S50000x2048, .f32⟩ : BufTy).Contents (Elt Ideal)) (x2 : (⟨Cert.ReferenceIdeal.S1024x2048, .f32⟩ : BufTy).Contents (Elt Ideal)) (x3 : (⟨Cert.ReferenceIdeal.S1024, .f32⟩ : BufTy).Contents (Elt Ideal)) (x4 : (⟨Cert.ReferenceIdeal.S1024x2048, .f32⟩ : BufTy).Contents (Elt Ideal)) (x5 : (⟨Cert.ReferenceIdeal.S1024, .f32⟩ : BufTy).Contents (Elt Ideal)) :
    Cert.ReferenceIdeal.Read.val_main_v12 (F := Ideal) x0 x1 x2 x3 x4 x5 = Cert.Spec.G x0 x1 x2 x3 x4 x5 := by
  funext j
  obtain ⟨p, q, rfl⟩ : ∃ (p : Fin 512) (q : Fin 50000), j = ix2 p q := ⟨j 0, j 1, eq_ix2 j⟩
  rw [Cert.Spec.G_apply]
  unfold Cert.Spec.entry Cert.Spec.beta
  rw [val_main_v12_apply, val_main_v11_apply, val_main_cst_apply, val_main_v10_apply, Ideal.mulf_def, Ideal.ofBits_def]
  congr 1
  refine Finset.sum_congr rfl fun a _ => ?_
  have hl : lidx_main_v10 (ix2 p q) a = ix2 p a :=
    funext fun d => Fin.ext (by match d with | ⟨0, _⟩ => rfl | ⟨1, _⟩ => rfl)
  have hr : ridx_main_v10 (ix2 p q) a = ix2 q a :=
    funext fun d => Fin.ext (by match d with | ⟨0, _⟩ => rfl | ⟨1, _⟩ => rfl)
  rw [hl, hr, mol_entry, temp_entry]

end Cert.ReferenceIdeal.RefValue

end
-- ==== Proof.lean ====
/-
  The certificate: the word-level kernel and its idealization run to the end with their arguments unchanged, the idealization
  is the printed text itself (the ideal pass rewrote nothing), and at the ideal values the idealized kernel and the idealized
  reference end with equal results.

  Both programs compute, entry (p, q), β · ∑ a, Ξ (p, a) · X (q, a) with Ξ = m · W_molᵀ + b_mol and X = templates · W_tempᵀ +
  b_temp, grouped alike: the kernel encodes the molecules in one region and, in a second, encodes 1024 templates at a time and
  contracts them with Ξ; the reference does the same with whole matrices. A change of float format is the identity at the ideal
  values, a matrix product into the zero matrix is the plain sum, and a different tiling does not change a sum's terms. The
  49 tiles cover 50176 ≥ 50000 templates; the rows past the array's end hold words nothing names, but an output column reads
  only its own template row, and the columns past the array's end are never written back.
-/
import proofs.«176094_j70643622085021_1_alg».proof.Defs
import proofs.«176094_j70643622085021_1_alg».proof.Proof.Gen.Kernel
import proofs.«176094_j70643622085021_1_alg».proof.Proof.Gen.KernelIdeal
import proofs.«176094_j70643622085021_1_alg».proof.Proof.Gen.ReferenceIdeal
import proofs.«176094_j70643622085021_1_alg».proof.Proof.Gen.Pre_finite_inputs
import proofs.«176094_j70643622085021_1_alg».proof.Proof.Gen.ReferenceIdeal.Run
import proofs.«176094_j70643622085021_1_alg».proof.Proof.Gen.ReferenceIdeal.Read
import proofs.«176094_j70643622085021_1_alg».proof.Proof.Kernel.Frame
import proofs.«176094_j70643622085021_1_alg».proof.Proof.KernelIdeal.Run
import proofs.«176094_j70643622085021_1_alg».proof.Proof.KernelIdeal.Value
import proofs.«176094_j70643622085021_1_alg».proof.Proof.RefIsSpec
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The word-level kernel's frame: its last region's output window forgotten. -/
theorem frame_p : Cert.frame_Kernel := fun m ρ _ => Cert.Kernel.Frame.frame (F := Bits) m ρ

/-- The idealized kernel's frame: its run with the result dropped. -/
theorem frame_pi : Cert.frame_KernelIdeal := fun m ρ _ =>
  (θ_run Cert.KernelIdeal.defs _ _).mono (fun _ h c => (h c).2)
    (Cert.KernelIdeal.Run.run (F := Ideal) m ρ (Cert.KernelIdeal.ValueG.hcut m ρ))

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs end holding the specification of the arguments. -/
theorem algebraic : Cert.algebraic_KernelIdeal_ReferenceIdeal := by
  intro m ρ m' ρ' _ hagree
  refine ⟨fun c => Cert.Spec.G (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5)), ?_, ?_⟩
  · exact (θ_run Cert.KernelIdeal.defs _ _).mono
      (fun _ h c => ⟨(h c).1.trans (Cert.KernelIdeal.ValueG.kernel_value m ρ c), (h c).2⟩)
      (Cert.KernelIdeal.Run.run (F := Ideal) m ρ (Cert.KernelIdeal.ValueG.hcut m ρ))
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact (Cert.ReferenceIdeal.Read.val_main_v12_eq _ _ _ _ _ _).trans (Cert.ReferenceIdeal.RefValue.ref_eq _ _ _ _ _ _)

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
